-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v64)) (v1 : (c : Dev Cert.KernelIdeal.nD) → Buf (Elt Ideal) ((c.tc : Thread Cert.KernelIdeal.nD Cert.KernelIdeal.τ).loc Cert.KernelIdeal.main_v65)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v64) = v0 c
          ∧ r.2.mem ((c.tc : Thread Cert.KernelIdeal.nD Cert.KernelIdeal.τ).loc Cert.KernelIdeal.main_v65) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_v81) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1000000 : Shape := ⟨2, ![2, 1000000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_arg6 : FVec F S128x64 .f32) (main_arg7 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S128x64 .f32 := Host.absf main_arg6
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S100000x128 .f32) (main_arg1 : IVec S2x1000000 32) (main_arg2 : FVec F S128x128 .f32) (main_arg3 : FVec F S128 .f32) (main_arg4 : FVec F S128x64 .f32) (main_arg5 : FVec F S64 .f32) (main_arg6 : FVec F S128x64 .f32) (main_arg7 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_arg6 main_arg7 main_v13 main_v16
-- ==== Kernel.lean ====
abbrev S100000x128 : Shape := ⟨2, ![100000, 128]⟩
abbrev S2x1000000 : Shape := ⟨2, ![2, 1000000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S100000 : Shape := ⟨1, ![100000]⟩
abbrev S1x1000000 : Shape := ⟨2, ![1, 1000000]⟩
abbrev S1000000 : Shape := ⟨1, ![1000000]⟩
abbrev S1100000 : Shape := ⟨1, ![1100000]⟩
abbrev S_ : Shape := ⟨0, ![]⟩
abbrev S1100000x1 : Shape := ⟨2, ![1100000, 1]⟩
abbrev S5000x128 : Shape := ⟨2, ![5000, 128]⟩
abbrev S1100000x128 : Shape := ⟨2, ![1100000, 128]⟩
abbrev S1x128 : Shape := ⟨2, ![1, 128]⟩
abbrev S100000x64 : Shape := ⟨2, ![100000, 64]⟩

abbrev nBuf : Space → Nat
  | .hbm => 90
  | .vmem => 20
  | .smem => 0
  | _ => 0

abbrev bufTy : (tb : Table) → Fin (tcTables nBuf tb) → BufTy
  | .hbm, ⟨0, _⟩ => ⟨S100000x128, .f32⟩
  | .hbm, ⟨1, _⟩ => ⟨S2x1000000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S128x64, .f32⟩
  | .hbm, ⟨7, _⟩ => ⟨S64, .f32⟩
  | .hbm, ⟨8, _⟩ => ⟨S100000, .i32⟩
  | .hbm, ⟨9, _⟩ => ⟨S1x1000000, .i32⟩
  | .hbm, ⟨10, _⟩ => ⟨S1000000, .i32⟩
  | .hbm, ⟨11, _⟩ => ⟨S1100000, .i32⟩
  | .hbm, ⟨12, _⟩ => ⟨S1x1000000, .i32⟩
  | .hbm, ⟨13, _⟩ => ⟨S1000000, .i32⟩
  | .hbm, ⟨14, _⟩ => ⟨S1100000, .i32⟩
  | .hbm, ⟨15, _⟩ => ⟨S_, .f32⟩
  | .hbm, ⟨16, _⟩ => ⟨S1100000, .f32⟩
  | .hbm, ⟨17, _⟩ => ⟨S_, .f32⟩
  | .hbm, ⟨18, _⟩ => ⟨S100000, .f32⟩
  | .hbm, ⟨19, _⟩ => ⟨S1100000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S1100000, .i32⟩
  | .hbm, ⟨31, _⟩ => ⟨S1100000, .i1⟩
  | .hbm, ⟨32, _⟩ => ⟨S_, .i32⟩
  | .hbm, ⟨33, _⟩ => ⟨S1100000, .i32⟩
  | .hbm, ⟨34, _⟩ => ⟨S1100000, .i32⟩
  | .hbm, ⟨35, _⟩ => ⟨S1100000, .i32⟩
  | .hbm, ⟨36, _⟩ => ⟨S1100000x1, .i32⟩
  | .hbm, ⟨37, _⟩ => ⟨S1100000, .f32⟩
  | .hbm, ⟨38, _⟩ => ⟨S_, .i32⟩
  | .hbm, ⟨39, _⟩ => ⟨S1100000, .i32⟩
  | .hbm, ⟨40, _⟩ => ⟨S1100000, .i1⟩
  | .hbm, ⟨41, _⟩ => ⟨S_, .i32⟩
  | .hbm, ⟨42, _⟩ => ⟨S1100000, .i32⟩
  | .hbm, ⟨43, _⟩ => ⟨S1100000, .i32⟩
  | .hbm, ⟨44, _⟩ => ⟨S1100000, .i32⟩
  | .hbm, ⟨45, _⟩ => ⟨S1100000x1, .i32⟩
  | .hbm, ⟨46, _⟩ => ⟨S1100000, .f32⟩
  | .hbm, ⟨47, _⟩ => ⟨S1100000, .f32⟩
  | .hbm, ⟨48, _⟩ => ⟨S100000x128, .f32⟩
  | .hbm, ⟨49, _⟩ => ⟨S_, .i32⟩
  | .hbm, ⟨50, _⟩ => ⟨S1100000, .i32⟩
  | .hbm, ⟨51, _⟩ => ⟨S1100000, .i1⟩
  | .hbm, ⟨52, _⟩ => ⟨S_, .i32⟩
  | .hbm, ⟨53, _⟩ => ⟨S1100000, .i32⟩
  | .hbm, ⟨54, _⟩ => ⟨S1100000, .i32⟩
  | .hbm, ⟨55, _⟩ => ⟨S1100000, .i32⟩
  | .hbm, ⟨56, _⟩ => ⟨S1100000x1, .i32⟩
  | .hbm, ⟨57, _⟩ => ⟨S1100000x128, .f32⟩
  | .hbm, ⟨58, _⟩ => ⟨S1100000x1, .f32⟩
  | .hbm, ⟨59, _⟩ => ⟨S1100000x128, .f32⟩
  | .hbm, ⟨60, _⟩ => ⟨S1100000x128, .f32⟩
  | .hbm, ⟨61, _⟩ => ⟨S_, .f32⟩
  | .hbm, ⟨62, _⟩ => ⟨S100000x128, .f32⟩
  | .hbm, ⟨63, _⟩ => ⟨S1100000x1, .i32⟩
  | .hbm, ⟨64, _⟩ => ⟨S100000x128, .f32⟩
  | .hbm, ⟨65, _⟩ => ⟨S1x128, .f32⟩
  | .hbm, ⟨66, _⟩ => ⟨S100000x128, .f32⟩
  | .hbm, ⟨67, _⟩ => ⟨S128x128, .f32⟩
  | .hbm, ⟨68, _⟩ => ⟨S128, .f32⟩
  | .hbm, ⟨69, _⟩ => ⟨S100000x128, .f32⟩
  | .hbm, ⟨70, _⟩ => ⟨S_, .i32⟩
  | .hbm, ⟨71, _⟩ => ⟨S1100000, .i32⟩
  | .hbm, ⟨72, _⟩ => ⟨S1100000, .i1⟩
  | .hbm, ⟨73, _⟩ => ⟨S_, .i32⟩
  | .hbm, ⟨74, _⟩ => ⟨S1100000, .i32⟩
  | .hbm, ⟨75, _⟩ => ⟨S1100000, .i32⟩
  | .hbm, ⟨76, _⟩ => ⟨S1100000, .i32⟩
  | .hbm, ⟨77, _⟩ => ⟨S1100000x1, .i32⟩
  | .hbm, ⟨78, _⟩ => ⟨S1100000x128, .f32⟩
  | .hbm, ⟨79, _⟩ => ⟨S1100000x1, .f32⟩
  | .hbm, ⟨80, _⟩ => ⟨S1100000x128, .f32⟩
  | .hbm, ⟨81, _⟩ => ⟨S1100000x128, .f32⟩
  | .hbm, ⟨82, _⟩ => ⟨S_, .f32⟩
  | .hbm, ⟨83, _⟩ => ⟨S100000x128, .f32⟩
  | .hbm, ⟨84, _⟩ => ⟨S1100000x1, .i32⟩
  | .hbm, ⟨85, _⟩ => ⟨S100000x128, .f32⟩
  | .hbm, ⟨86, _⟩ => ⟨S1x128, .f32⟩
  | .hbm, ⟨87, _⟩ => ⟨S100000x128, .f32⟩
  | .hbm, ⟨88, _⟩ => ⟨S100000x64, .f32⟩
  | .hbm, ⟨89, _⟩ => ⟨S100000x64, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S1x128, .f32⟩
  | .local _ .vmem, ⟨18, _⟩ => ⟨S5000x128, .f32⟩
  | .local _ .vmem, ⟨19, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x1000000_S1x1000000_0_0 : S2x1000000.Slices ![0, 0] S1x1000000
  shapeCasts_S1x1000000_S1000000 : S1x1000000.ShapeCasts S1000000
  concatenates_S1000000_S100000_S1100000_d0 : Shape.Concatenates [S1000000, S100000] S1100000 0
  slices_S2x1000000_S1x1000000_1_0 : S2x1000000.Slices ![1, 0] S1x1000000
  bcast_S_S1100000 : S_.BroadcastsInDim S1100000 (![] : Fin 0 → Fin S1100000.rank)
  bcast_S_S100000 : S_.BroadcastsInDim S100000 (![] : Fin 0 → Fin S100000.rank)
  bcast_S1100000_S1100000x1_0 : S1100000.BroadcastsInDim S1100000x1 (![0] : Fin 1 → Fin S1100000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1100000x1_S1100000x128_0_1 : S1100000x1.BroadcastsInDim S1100000x128 (![0, 1] : Fin 2 → Fin S1100000x128.rank)
  bcast_S_S100000x128 : S_.BroadcastsInDim S100000x128 (![] : Fin 0 → Fin S100000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  concatenates_S128x64_S128x64_S128x128_d1 : Shape.Concatenates [S128x64, S128x64] S128x128 1
  concatenates_S64_S64_S128_d0 : Shape.Concatenates [S64, S64] S128 0
  shapeCasts_S128x128_S128x128 : S128x128.ShapeCasts S128x128
  slices_S100000x128_S100000x64_0_0 : S100000x128.Slices ![0, 0] S100000x64
  slices_S100000x128_S100000x64_0_64 : S100000x128.Slices ![0, 64] S100000x64
  scatter_S100000_S1100000x1_S1100000_n_0_0_1_wf : ScatterDims.WF S100000 S1100000x1 S1100000 [] [0] [0] 1
  gather_S100000_S1100000x1_S1100000_n_0_n_n_0_1_1_wf : GatherDims.WF S100000 S1100000x1 S1100000 [] [0] [] [0] [] 1 ![1]
  dot_S5000x128_S128x128_S5000x128_1_0_0_1_n_n_wf : DotDims.WF S5000x128 S128x128 S5000x128 [1] [0] [0] [1] [] []
  gather_S100000x128_S1100000x1_S1100000x128_1_0_n_n_0_1_1128_wf : GatherDims.WF S100000x128 S1100000x1 S1100000x128 [1] [0] [] [0] [] 1 ![1, 128]
  scatter_S100000x128_S1100000x1_S1100000x128_1_0_0_1_wf : ScatterDims.WF S100000x128 S1100000x1 S1100000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S100000x128.size a
  hwx2_2 : ∀ i : grid2.Coords, EltTy.bits .f32 = 32 ∨ (Rect.block (s := S100000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S100000x128.size a
  hwx3_2 : ∀ i : grid3.Coords, EltTy.bits .f32 = 32 ∨ (Rect.block (s := S100000x128) S5000x128.size (cc3_transform_2 i) (hinb3_2 i)).WholeWords (EltTy.packing .f32)

variable [Facts₀]

def scatter_S100000_S1100000x1_S1100000_n_0_0_1 : ScatterDims S100000 S1100000x1 S1100000 where
  updateWindowDims := []
  insertedWindowDims := [0]
  scatterDimsToOperandDims := [0]
  indexVectorDim := 1
  wf := scatter_S100000_S1100000x1_S1100000_n_0_0_1_wf
def gather_S100000_S1100000x1_S1100000_n_0_n_n_0_1_1 : GatherDims S100000 S1100000x1 S1100000 where
  offsetDims := []
  collapsedSliceDims := [0]
  operandBatchingDims := []
  startIndicesBatchingDims := []
  startIndexMap := [0]
  indexVectorDim := 1
  sliceSizes := ![1]
  wf := gather_S100000_S1100000x1_S1100000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1100000x1_S1100000x128_1_0_n_n_0_1_1128 : GatherDims S100000x128 S1100000x1 S1100000x128 where
  offsetDims := [1]
  collapsedSliceDims := [0]
  operandBatchingDims := []
  startIndicesBatchingDims := []
  startIndexMap := [0]
  indexVectorDim := 1
  sliceSizes := ![1, 128]
  wf := gather_S100000x128_S1100000x1_S1100000x128_1_0_n_n_0_1_1128_wf
def scatter_S100000x128_S1100000x1_S1100000x128_1_0_0_1 : ScatterDims S100000x128 S1100000x1 S1100000x128 where
  updateWindowDims := [1]
  insertedWindowDims := [0]
  scatterDimsToOperandDims := [0]
  indexVectorDim := 1
  wf := scatter_S100000x128_S1100000x1_S1100000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v46) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v48) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v61) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v62) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v63) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x1000000 : Shape := ⟨2, ![2, 1000000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S100000 : Shape := ⟨1, ![100000]⟩
abbrev S1x1000000 : Shape := ⟨2, ![1, 1000000]⟩
abbrev S1000000 : Shape := ⟨1, ![1000000]⟩
abbrev S1100000 : Shape := ⟨1, ![1100000]⟩
abbrev S_ : Shape := ⟨0, ![]⟩
abbrev S1100000x1 : Shape := ⟨2, ![1100000, 1]⟩
abbrev S1100000x128 : Shape := ⟨2, ![1100000, 128]⟩
abbrev S1x128 : Shape := ⟨2, ![1, 128]⟩
abbrev S100000x64 : Shape := ⟨2, ![100000, 64]⟩
abbrev S1100000x64 : Shape := ⟨2, ![1100000, 64]⟩
abbrev S1x64 : Shape := ⟨2, ![1, 64]⟩

abbrev nBuf : Space → Nat
  | .hbm => 111
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1000000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S128x64, .f32⟩
  | .hbm, ⟨7, _⟩ => ⟨S64, .f32⟩
  | .hbm, ⟨8, _⟩ => ⟨S100000, .i32⟩
  | .hbm, ⟨9, _⟩ => ⟨S1x1000000, .i32⟩
  | .hbm, ⟨10, _⟩ => ⟨S1000000, .i32⟩
  | .hbm, ⟨11, _⟩ => ⟨S1100000, .i32⟩
  | .hbm, ⟨12, _⟩ => ⟨S1x1000000, .i32⟩
  | .hbm, ⟨13, _⟩ => ⟨S1000000, .i32⟩
  | .hbm, ⟨14, _⟩ => ⟨S1100000, .i32⟩
  | .hbm, ⟨15, _⟩ => ⟨S_, .f32⟩
  | .hbm, ⟨16, _⟩ => ⟨S1100000, .f32⟩
  | .hbm, ⟨17, _⟩ => ⟨S_, .f32⟩
  | .hbm, ⟨18, _⟩ => ⟨S100000, .f32⟩
  | .hbm, ⟨19, _⟩ => ⟨S1100000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S1100000, .i32⟩
  | .hbm, ⟨31, _⟩ => ⟨S1100000, .i1⟩
  | .hbm, ⟨32, _⟩ => ⟨S_, .i32⟩
  | .hbm, ⟨33, _⟩ => ⟨S1100000, .i32⟩
  | .hbm, ⟨34, _⟩ => ⟨S1100000, .i32⟩
  | .hbm, ⟨35, _⟩ => ⟨S1100000, .i32⟩
  | .hbm, ⟨36, _⟩ => ⟨S1100000x1, .i32⟩
  | .hbm, ⟨37, _⟩ => ⟨S1100000, .f32⟩
  | .hbm, ⟨38, _⟩ => ⟨S_, .i32⟩
  | .hbm, ⟨39, _⟩ => ⟨S1100000, .i32⟩
  | .hbm, ⟨40, _⟩ => ⟨S1100000, .i1⟩
  | .hbm, ⟨41, _⟩ => ⟨S_, .i32⟩
  | .hbm, ⟨42, _⟩ => ⟨S1100000, .i32⟩
  | .hbm, ⟨43, _⟩ => ⟨S1100000, .i32⟩
  | .hbm, ⟨44, _⟩ => ⟨S1100000, .i32⟩
  | .hbm, ⟨45, _⟩ => ⟨S1100000x1, .i32⟩
  | .hbm, ⟨46, _⟩ => ⟨S1100000, .f32⟩
  | .hbm, ⟨47, _⟩ => ⟨S1100000, .f32⟩
  | .hbm, ⟨48, _⟩ => ⟨S100000x128, .f32⟩
  | .hbm, ⟨49, _⟩ => ⟨S_, .i32⟩
  | .hbm, ⟨50, _⟩ => ⟨S1100000, .i32⟩
  | .hbm, ⟨51, _⟩ => ⟨S1100000, .i1⟩
  | .hbm, ⟨52, _⟩ => ⟨S_, .i32⟩
  | .hbm, ⟨53, _⟩ => ⟨S1100000, .i32⟩
  | .hbm, ⟨54, _⟩ => ⟨S1100000, .i32⟩
  | .hbm, ⟨55, _⟩ => ⟨S1100000, .i32⟩
  | .hbm, ⟨56, _⟩ => ⟨S1100000x1, .i32⟩
  | .hbm, ⟨57, _⟩ => ⟨S1100000x128, .f32⟩
  | .hbm, ⟨58, _⟩ => ⟨S1100000x1, .f32⟩
  | .hbm, ⟨59, _⟩ => ⟨S1100000x128, .f32⟩
  | .hbm, ⟨60, _⟩ => ⟨S1100000x128, .f32⟩
  | .hbm, ⟨61, _⟩ => ⟨S_, .f32⟩
  | .hbm, ⟨62, _⟩ => ⟨S100000x128, .f32⟩
  | .hbm, ⟨63, _⟩ => ⟨S1100000x1, .i32⟩
  | .hbm, ⟨64, _⟩ => ⟨S100000x128, .f32⟩
  | .hbm, ⟨65, _⟩ => ⟨S1x128, .f32⟩
  | .hbm, ⟨66, _⟩ => ⟨S100000x128, .f32⟩
  | .hbm, ⟨67, _⟩ => ⟨S100000x128, .f32⟩
  | .hbm, ⟨68, _⟩ => ⟨S_, .f32⟩
  | .hbm, ⟨69, _⟩ => ⟨S100000x128, .f32⟩
  | .hbm, ⟨70, _⟩ => ⟨S100000x128, .f32⟩
  | .hbm, ⟨71, _⟩ => ⟨S100000x64, .f32⟩
  | .hbm, ⟨72, _⟩ => ⟨S_, .i32⟩
  | .hbm, ⟨73, _⟩ => ⟨S1100000, .i32⟩
  | .hbm, ⟨74, _⟩ => ⟨S1100000, .i1⟩
  | .hbm, ⟨75, _⟩ => ⟨S_, .i32⟩
  | .hbm, ⟨76, _⟩ => ⟨S1100000, .i32⟩
  | .hbm, ⟨77, _⟩ => ⟨S1100000, .i32⟩
  | .hbm, ⟨78, _⟩ => ⟨S1100000, .i32⟩
  | .hbm, ⟨79, _⟩ => ⟨S1100000x1, .i32⟩
  | .hbm, ⟨80, _⟩ => ⟨S1100000x64, .f32⟩
  | .hbm, ⟨81, _⟩ => ⟨S1100000x1, .f32⟩
  | .hbm, ⟨82, _⟩ => ⟨S1100000x64, .f32⟩
  | .hbm, ⟨83, _⟩ => ⟨S1100000x64, .f32⟩
  | .hbm, ⟨84, _⟩ => ⟨S_, .f32⟩
  | .hbm, ⟨85, _⟩ => ⟨S100000x64, .f32⟩
  | .hbm, ⟨86, _⟩ => ⟨S1100000x1, .i32⟩
  | .hbm, ⟨87, _⟩ => ⟨S100000x64, .f32⟩
  | .hbm, ⟨88, _⟩ => ⟨S1x64, .f32⟩
  | .hbm, ⟨89, _⟩ => ⟨S100000x64, .f32⟩
  | .hbm, ⟨90, _⟩ => ⟨S100000x64, .f32⟩
  | .hbm, ⟨91, _⟩ => ⟨S100000x64, .f32⟩
  | .hbm, ⟨92, _⟩ => ⟨S_, .i32⟩
  | .hbm, ⟨93, _⟩ => ⟨S1100000, .i32⟩
  | .hbm, ⟨94, _⟩ => ⟨S1100000, .i1⟩
  | .hbm, ⟨95, _⟩ => ⟨S_, .i32⟩
  | .hbm, ⟨96, _⟩ => ⟨S1100000, .i32⟩
  | .hbm, ⟨97, _⟩ => ⟨S1100000, .i32⟩
  | .hbm, ⟨98, _⟩ => ⟨S1100000, .i32⟩
  | .hbm, ⟨99, _⟩ => ⟨S1100000x1, .i32⟩
  | .hbm, ⟨100, _⟩ => ⟨S1100000x64, .f32⟩
  | .hbm, ⟨101, _⟩ => ⟨S1100000x1, .f32⟩
  | .hbm, ⟨102, _⟩ => ⟨S1100000x64, .f32⟩
  | .hbm, ⟨103, _⟩ => ⟨S1100000x64, .f32⟩
  | .hbm, ⟨104, _⟩ => ⟨S_, .f32⟩
  | .hbm, ⟨105, _⟩ => ⟨S100000x64, .f32⟩
  | .hbm, ⟨106, _⟩ => ⟨S1100000x1, .i32⟩
  | .hbm, ⟨107, _⟩ => ⟨S100000x64, .f32⟩
  | .hbm, ⟨108, _⟩ => ⟨S1x64, .f32⟩
  | .hbm, ⟨109, _⟩ => ⟨S100000x64, .f32⟩
  | .hbm, ⟨110, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_call1_cst : Ref sig .tc := ⟨.hbm, 68, rfl⟩
abbrev main_call1_v0 : Ref sig .tc := ⟨.hbm, 69, rfl⟩
abbrev main_v47 : Ref sig .tc := ⟨.hbm, 70, rfl⟩
abbrev main_v48 : Ref sig .tc := ⟨.hbm, 71, rfl⟩
abbrev main_c_9 : Ref sig .tc := ⟨.hbm, 72, rfl⟩
abbrev main_v49 : Ref sig .tc := ⟨.hbm, 73, rfl⟩
abbrev main_v50 : Ref sig .tc := ⟨.hbm, 74, rfl⟩
abbrev main_c_10 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_11 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_c_12 : Ref sig .tc := ⟨.hbm, 92, rfl⟩
abbrev main_v66 : Ref sig .tc := ⟨.hbm, 93, rfl⟩
abbrev main_v67 : Ref sig .tc := ⟨.hbm, 94, rfl⟩
abbrev main_c_13 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_cst_14 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩

abbrev nD : Nat := 1
abbrev τ : Topo := Topo.v7x

variable {F : FTy → Type} [FloatOps F]

class Facts₀ : Prop where
  slices_S2x1000000_S1x1000000_0_0 : S2x1000000.Slices ![0, 0] S1x1000000
  shapeCasts_S1x1000000_S1000000 : S1x1000000.ShapeCasts S1000000
  concatenates_S1000000_S100000_S1100000_d0 : Shape.Concatenates [S1000000, S100000] S1100000 0
  slices_S2x1000000_S1x1000000_1_0 : S2x1000000.Slices ![1, 0] S1x1000000
  bcast_S_S1100000 : S_.BroadcastsInDim S1100000 (![] : Fin 0 → Fin S1100000.rank)
  bcast_S_S100000 : S_.BroadcastsInDim S100000 (![] : Fin 0 → Fin S100000.rank)
  bcast_S1100000_S1100000x1_0 : S1100000.BroadcastsInDim S1100000x1 (![0] : Fin 1 → Fin S1100000x1.rank)
  bcast_S1100000x1_S1100000x128_0_1 : S1100000x1.BroadcastsInDim S1100000x128 (![0, 1] : Fin 2 → Fin S1100000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1100000x1_S1100000x64_0_1 : S1100000x1.BroadcastsInDim S1100000x64 (![0, 1] : Fin 2 → Fin S1100000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1100000x1_S1100000_n_0_0_1_wf : ScatterDims.WF S100000 S1100000x1 S1100000 [] [0] [0] 1
  gather_S100000_S1100000x1_S1100000_n_0_n_n_0_1_1_wf : GatherDims.WF S100000 S1100000x1 S1100000 [] [0] [] [0] [] 1 ![1]
  dot_S100000x128_S128x128_S100000x128_1_0_0_1_n_n_wf : DotDims.WF S100000x128 S128x128 S100000x128 [1] [0] [0] [1] [] []
  gather_S100000x128_S1100000x1_S1100000x128_1_0_n_n_0_1_1128_wf : GatherDims.WF S100000x128 S1100000x1 S1100000x128 [1] [0] [] [0] [] 1 ![1, 128]
  scatter_S100000x128_S1100000x1_S1100000x128_1_0_0_1_wf : ScatterDims.WF S100000x128 S1100000x1 S1100000x128 [1] [0] [0] 1
  dot_S100000x128_S128x64_S100000x64_1_0_0_1_n_n_wf : DotDims.WF S100000x128 S128x64 S100000x64 [1] [0] [0] [1] [] []
  gather_S100000x64_S1100000x1_S1100000x64_1_0_n_n_0_1_164_wf : GatherDims.WF S100000x64 S1100000x1 S1100000x64 [1] [0] [] [0] [] 1 ![1, 64]
  scatter_S100000x64_S1100000x1_S1100000x64_1_0_0_1_wf : ScatterDims.WF S100000x64 S1100000x1 S1100000x64 [1] [0] [0] 1

variable [Facts₀]

def scatter_S100000_S1100000x1_S1100000_n_0_0_1 : ScatterDims S100000 S1100000x1 S1100000 where
  updateWindowDims := []
  insertedWindowDims := [0]
  scatterDimsToOperandDims := [0]
  indexVectorDim := 1
  wf := scatter_S100000_S1100000x1_S1100000_n_0_0_1_wf
def gather_S100000_S1100000x1_S1100000_n_0_n_n_0_1_1 : GatherDims S100000 S1100000x1 S1100000 where
  offsetDims := []
  collapsedSliceDims := [0]
  operandBatchingDims := []
  startIndicesBatchingDims := []
  startIndexMap := [0]
  indexVectorDim := 1
  sliceSizes := ![1]
  wf := gather_S100000_S1100000x1_S1100000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1100000x1_S1100000x128_1_0_n_n_0_1_1128 : GatherDims S100000x128 S1100000x1 S1100000x128 where
  offsetDims := [1]
  collapsedSliceDims := [0]
  operandBatchingDims := []
  startIndicesBatchingDims := []
  startIndexMap := [0]
  indexVectorDim := 1
  sliceSizes := ![1, 128]
  wf := gather_S100000x128_S1100000x1_S1100000x128_1_0_n_n_0_1_1128_wf
def scatter_S100000x128_S1100000x1_S1100000x128_1_0_0_1 : ScatterDims S100000x128 S1100000x1 S1100000x128 where
  updateWindowDims := [1]
  insertedWindowDims := [0]
  scatterDimsToOperandDims := [0]
  indexVectorDim := 1
  wf := scatter_S100000x128_S1100000x1_S1100000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1100000x1_S1100000x64_1_0_n_n_0_1_164 : GatherDims S100000x64 S1100000x1 S1100000x64 where
  offsetDims := [1]
  collapsedSliceDims := [0]
  operandBatchingDims := []
  startIndicesBatchingDims := []
  startIndexMap := [0]
  indexVectorDim := 1
  sliceSizes := ![1, 64]
  wf := gather_S100000x64_S1100000x1_S1100000x64_1_0_n_n_0_1_164_wf
def scatter_S100000x64_S1100000x1_S1100000x64_1_0_0_1 : ScatterDims S100000x64 S1100000x1 S1100000x64 where
  updateWindowDims := [1]
  insertedWindowDims := [0]
  scatterDimsToOperandDims := [0]
  indexVectorDim := 1
  wf := scatter_S100000x64_S1100000x1_S1100000x64_1_0_0_1_wf

class Facts : Prop extends Facts₀ where

variable [Facts]
-- ==== Proof.KHost.lean ====
/-
  The kernel program's host lines between its four kernel regions, read as functions of the buffers they start from.

  The lines before the first region build the edge lists (the given edges followed by one self-loop per node), the
  degree of every node and from it the weight of every edge; they are the very lines the reference begins with, so
  what they leave in the source list, the target list and the weight vector are the reference's own stages.
  After each product region come the lines of one message-passing step: gather the product's rows by the source
  list (negative words first moved up by the number of nodes), scale by the edge weights, add into the rows the target
  list names. Between the two layers the two head matrices and the two head biases are set side by side; after the last
  region the result's columns are cut into the two heads. Every fact is stated for the contents `U` the lines start from,
  whatever they are, and for any float family.
-/
import proofs.«123345_j7421703487979_1_alg».proof.Proof.Gen.KernelIdeal.Frame
import proofs.«123345_j7421703487979_1_alg».proof.Proof.RefRead
import Idealize.ShloMosaic.Lib.StableHlo.Run

set_option maxRecDepth 16384

noncomputable section

namespace Cert.KernelIdeal.HostValue

open Cert.KernelIdeal Cert.KernelIdeal.Gen
open Idealize.ShloMosaic Idealize.ShloMosaic.TcCoe Idealize.ShloMosaic.StableHlo Idealize.SL.Sem

variable {F : FTy → Type} [FloatOps F]

/-- One message-passing step over node features `h`: the source words `v3` (a negative word moved up by the number of
    nodes) name the rows gathered, `v29` scales each gathered row, and the target words `v6` name the rows added into,
    starting from zero. -/
def step (h : FVec F S100000x128 .f32) (v3 v6 : IVec S1100000 32) (v29 : FVec F S1100000 .f32) : FVec F S100000x128 .f32 :=
  Host.scatterAdd scatter_S100000x128_S1100000x1_S1100000x128_1_0_0_1
    (broadcastInDim S100000x128 ![] bcast_S_S100000x128 (constant (F := F) S_ .f32 0x00000000#32))
    (broadcastInDim S1100000x1 ![0] bcast_S1100000_S1100000x1_0 v6)
    (mulf
      (Host.gather gather_S100000x128_S1100000x1_S1100000x128_1_0_n_n_0_1_1128 h
        (broadcastInDim S1100000x1 ![0] bcast_S1100000_S1100000x1_0
          (select (cmpi .slt v3 (broadcastInDim S1100000 ![] bcast_S_S1100000 (constantI S_ 32 0#32)))
            (addi v3 (broadcastInDim S1100000 ![] bcast_S_S1100000 (constantI S_ 32 100000#32))) v3)))
      (broadcastInDim S1100000x128 ![0, 1] bcast_S1100000x1_S1100000x128_0_1
        (broadcastInDim S1100000x1 ![0] bcast_S1100000_S1100000x1_0 v29)))

/-! ## The lines before the first region -/

/-- The source list after the opening lines is the reference's. -/
theorem opening_v3 (U : Valuation τ sig (Elt F)) :
    StableHlo.after hostOps0_2 (StableHlo.after hostOps0_1 (StableHlo.after hostOps0 U)) (Proc.devRef .tc main_v3)
      = Cert.ReferenceIdeal.ReadP.val_main_v3 (F := F) (U (Proc.devRef .tc main_arg1)) := by
  dsimp only [hostOps0, hostOps0_1, hostOps0_2]
  after_results_simp
  rfl

/-- The target list after the opening lines is the reference's. -/
theorem opening_v6 (U : Valuation τ sig (Elt F)) :
    StableHlo.after hostOps0_2 (StableHlo.after hostOps0_1 (StableHlo.after hostOps0 U)) (Proc.devRef .tc main_v6)
      = Cert.ReferenceIdeal.ReadP.val_main_v6 (F := F) (U (Proc.devRef .tc main_arg1)) := by
  dsimp only [hostOps0, hostOps0_1, hostOps0_2]
  after_results_simp
  rfl

set_option maxHeartbeats 4000000 in
/-- The edge weights after the opening lines are the reference's. -/
theorem opening_v29 (U : Valuation τ sig (Elt F)) :
    StableHlo.after hostOps0_2 (StableHlo.after hostOps0_1 (StableHlo.after hostOps0 U)) (Proc.devRef .tc main_v29)
      = Cert.ReferenceIdeal.ReadP.val_main_v29 (F := F) (U (Proc.devRef .tc main_arg1)) := by
  dsimp only [hostOps0, hostOps0_1, hostOps0_2]
  after_results_simp
  rfl

/-! ## The lines after each region -/

set_option maxHeartbeats 4000000 in
/-- After the first product region: one step over the product. -/
theorem layer1_v43 (U : Valuation τ sig (Elt F)) :
    StableHlo.after hostOps1 U (Proc.devRef .tc main_v43)
      = step (U (Proc.devRef .tc main_v30)) (U (Proc.devRef .tc main_v3)) (U (Proc.devRef .tc main_v6)) (U (Proc.devRef .tc main_v29)) := by
  dsimp only [hostOps1]
  after_results_simp
  rfl

/-- … and the first bias as a row. -/
theorem layer1_v44 (U : Valuation τ sig (Elt F)) :
    StableHlo.after hostOps1 U (Proc.devRef .tc main_v44)
      = shapeCast S1x128 (U (Proc.devRef .tc main_arg3) : FVec F S128 .f32) shapeCasts_S128_S1x128 := by
  dsimp only [hostOps1]
  after_results_simp
  rfl

/-- Between the layers: the two head matrices side by side … -/
theorem heads_v46 (U : Valuation τ sig (Elt F)) :
    StableHlo.after hostOps2 U (Proc.devRef .tc main_v46)
      = concatenate S128x128 1 [⟨S128x64, (U (Proc.devRef .tc main_arg4) : FVec F S128x64 .f32)⟩, ⟨S128x64, (U (Proc.devRef .tc main_arg6) : FVec F S128x64 .f32)⟩]
          concatenates_S128x64_S128x64_S128x128_d1 := by
  dsimp only [hostOps2]
  after_results_simp

/-- … and the two head biases end to end. -/
theorem heads_v47 (U : Valuation τ sig (Elt F)) :
    StableHlo.after hostOps2 U (Proc.devRef .tc main_v47)
      = concatenate S128 0 [⟨S64, (U (Proc.devRef .tc main_arg5) : FVec F S64 .f32)⟩, ⟨S64, (U (Proc.devRef .tc main_arg7) : FVec F S64 .f32)⟩]
          concatenates_S64_S64_S128_d0 := by
  dsimp only [hostOps2]
  after_results_simp
  rfl

set_option maxHeartbeats 4000000 in
/-- After the second product region: one step over the fused product. -/
theorem layer2_v61 (U : Valuation τ sig (Elt F)) :
    StableHlo.after hostOps3 U (Proc.devRef .tc main_v61)
      = step (U (Proc.devRef .tc main_v48)) (U (Proc.devRef .tc main_v3)) (U (Proc.devRef .tc main_v6)) (U (Proc.devRef .tc main_v29)) := by
  dsimp only [hostOps3]
  after_results_simp
  rfl

/-- … and the fused bias as a row. -/
theorem layer2_v62 (U : Valuation τ sig (Elt F)) :
    StableHlo.after hostOps3 U (Proc.devRef .tc main_v62)
      = shapeCast S1x128 (U (Proc.devRef .tc main_v47) : FVec F S128 .f32) shapeCasts_S128_S1x128 := by
  dsimp only [hostOps3]
  after_results_simp
  rfl

/-- The first head: the first 64 columns of the last region's result. -/
theorem split_v64 (U : Valuation τ sig (Elt F)) :
    StableHlo.after hostOps4 U (Proc.devRef .tc main_v64)
      = extractStridedSlice S100000x64 ![0, 0] (U (Proc.devRef .tc main_v63) : FVec F S100000x128 .f32) slices_S100000x128_S100000x64_0_0 := by
  dsimp only [hostOps4]
  after_results_simp

/-- The second head: the last 64 columns. -/
theorem split_v65 (U : Valuation τ sig (Elt F)) :
    StableHlo.after hostOps4 U (Proc.devRef .tc main_v65)
      = extractStridedSlice S100000x64 ![0, 64] (U (Proc.devRef .tc main_v63) : FVec F S100000x128 .f32) slices_S100000x128_S100000x64_0_64 := by
  dsimp only [hostOps4]
  after_results_simp

/-! ## A step over the reference's own stages -/

/-- One step over the reference's first product, its source and target lists and its weights is the reference's first
    aggregate: the same lines, word for word. -/
theorem step_ref_v43 (x0 : FVec F S100000x128 .f32) (x1 : IVec S2x1000000 32) (x2 : FVec F S128x128 .f32) :
    step (Cert.ReferenceIdeal.ReadP.val_main_v30 (F := F) x0 x2) (Cert.ReferenceIdeal.ReadP.val_main_v3 (F := F) x1)
        (Cert.ReferenceIdeal.ReadP.val_main_v6 (F := F) x1) (Cert.ReferenceIdeal.ReadP.val_main_v29 (F := F) x1)
      = Cert.ReferenceIdeal.ReadP.val_main_v43 (F := F) x0 x1 x2 := rfl

end Cert.KernelIdeal.HostValue

end
-- ==== Proof.Spec.lean ====
/-
  The whole-array functions that both programs compute, stated index by index on the extended reals.

  A two-layer graph convolution: each layer multiplies the node features by a weight matrix, sends every node's
  product row along the edges scaled by the edge's normalisation, sums what arrives at each node, and adds a bias;
  the first layer ends in a rectifier. What is particular to the kernel is arrangement only: its products are
  computed block of rows by block of rows, its bias (and rectifier) steps likewise, and its second layer multiplies
  by the two head matrices set side by side and splits the columns at the end. The functions below are the pieces
  that do not depend on that arrangement.
-/
import Idealize.ShloMosaic.PureOps.Ideal
import Idealize.ShloMosaic.Lib.ValueIdx

noncomputable section

namespace Cert.Spec

open Idealize.ShloMosaic Idealize.ShloMosaic.ValueIdx
open scoped BigOperators

/-- An `a × b` array of extended reals. -/
abbrev Arr (a b : Nat) := (⟨2, ![a, b]⟩ : Shape).Idx → EReal
/-- A vector of `b` extended reals. -/
abbrev Vec1 (b : Nat) := (⟨1, ![b]⟩ : Shape).Idx → EReal

/-- The product of an `A × K` array with a `K × B` array: entry `(p, q)` is `∑ k, X (p, k) · W (k, q)`. -/
def mm {A K B : Nat} (X : Arr A K) (W : Arr K B) : Arr A B :=
  fun i => ∑ k : Fin K, X (ix2 (n0 := A) (n1 := K) (i 0) k) * W (ix2 (n0 := K) (n1 := B) k (i 1))

theorem mm_apply {A K B : Nat} (X : Arr A K) (W : Arr K B) (p : Fin A) (q : Fin B) :
    mm X W (ix2 p q) = ∑ k : Fin K, X (ix2 p k) * W (ix2 k q) := rfl

/-- A row `b` (held as a `1 × B` array) added to every row of `X`, then the rectifier. -/
def biasRelu {A B : Nat} (X : Arr A B) (b : Arr 1 B) : Arr A B :=
  fun i => max (X i + b (ix2 (n0 := 1) (n1 := B) 0 (i 1))) 0

/-- A row `b` (held as a `1 × B` array) added to every row of `X`. -/
def biasAdd {A B : Nat} (X : Arr A B) (b : Arr 1 B) : Arr A B :=
  fun i => X i + b (ix2 (n0 := 1) (n1 := B) 0 (i 1))

/-- The first `B` columns of an `A × (B + B')` array. -/
def colsLo {A B B' : Nat} (X : Arr A (B + B')) : Arr A B :=
  fun i => X (ix2 (n0 := A) (n1 := B + B') (i 0) (Fin.castAdd B' (i 1)))

/-- The last `B'` columns of an `A × (B + B')` array. -/
def colsHi {A B B' : Nat} (X : Arr A (B + B')) : Arr A B' :=
  fun i => X (ix2 (n0 := A) (n1 := B + B') (i 0) (Fin.natAdd B (i 1)))

/-- Two arrays with the same rows set side by side. -/
def sideBySide {A B B' : Nat} (X : Arr A B) (Y : Arr A B') : Arr A (B + B') :=
  fun i => Fin.addCases (fun j => X (ix2 (n0 := A) (n1 := B) (i 0) j)) (fun j => Y (ix2 (n0 := A) (n1 := B') (i 0) j)) (i 1)

end Cert.Spec

end
-- ==== Proof.LibDotFormats.lean ====
/-
  Matrix products with ONE contracted axis, read at an index, for operands of any float formats.

  Two arrangements of the dimension numbers of a rank-2 product without batch axes:
  * rows by columns: an `A × K` left operand against a `K × B` right operand, the left operand's second axis
    contracted against the right operand's first; entry `(p, q)` is `∑ k, f (p, k) · g (k, q)`;
  * rows by rows: an `A × K` left operand against a `B × K` right operand, the second axis of both contracted
    (the right operand enters transposed); entry `(p, q)` is `∑ k, f (p, k) · g (q, k)`.
  In both the contraction index has the one coordinate `k : Fin K`. Any record with those dimension numbers is
  the library's `DotDims.plain`, respectively `DotDims.transposedRhs`, for which the operand indices compute.
  The operands' element formats are arbitrary (at the ideal values every format is the extended reals), so the
  statements serve a product of half-precision operands accumulated in single precision as well.
-/
import Idealize.ShloMosaic.PureOps.Ideal
import Idealize.ShloMosaic.PureOps.Ideal.Laws
import Idealize.ShloMosaic.Lib.ValueIdx

noncomputable section

namespace Cert.LibDotFormats

open Idealize.ShloMosaic Idealize.ShloMosaic.ValueIdx
open scoped BigOperators

variable {A K B : Nat}

/-! ## Rows by columns: `[A, K] × [K, B]`, dimension numbers `[1] × [0]` -/

/-- Dimension numbers `[1] × [0]`, free axes `[0]` and `[1]`, no batch: the record is `DotDims.plain`. -/
theorem eq_plain (d : DotDims ⟨2, ![A, K]⟩ ⟨2, ![K, B]⟩ ⟨2, ![A, B]⟩)
    (hlc : d.lhsContracting = [1]) (hrc : d.rhsContracting = [0]) (hln : d.lhsNonContracting = [0])
    (hrn : d.rhsNonContracting = [1]) (hlb : d.lhsBatch = []) (hrb : d.rhsBatch = []) : d = DotDims.plain A K B := by
  cases d
  simp only at hlc hrc hln hrn hlb hrb
  subst hlc hrc hln hrn hlb hrb
  rfl

theorem plain_rank : (DotDims.plain A K B).contr.rank = 1 := rfl
theorem plain_size : (DotDims.plain A K B).contr.size ⟨0, by rw [plain_rank]; exact Nat.one_pos⟩ = K := rfl

theorem plain_lhs (p : Fin A) (q : Fin B) (k : Fin K) :
    (DotDims.plain A K B).lhsIdx (ix2 p q) ((contrEquiv1 (DotDims.plain A K B) K plain_rank plain_size).symm k) = ix2 p k := by
  funext a
  apply Fin.ext
  match a with
  | ⟨0, _⟩ => rfl
  | ⟨1, _⟩ => rfl

theorem plain_rhs (p : Fin A) (q : Fin B) (k : Fin K) :
    (DotDims.plain A K B).rhsIdx (ix2 p q) ((contrEquiv1 (DotDims.plain A K B) K plain_rank plain_size).symm k) = ix2 k q := by
  funext a
  apply Fin.ext
  match a with
  | ⟨0, _⟩ => rfl
  | ⟨1, _⟩ => rfl

/-- The sum over the contraction index is the sum over `k : Fin K` of `f (p, k) · g (k, q)`. -/
theorem plain_sum (f : (⟨2, ![A, K]⟩ : Shape).Idx → EReal) (g : (⟨2, ![K, B]⟩ : Shape).Idx → EReal) (p : Fin A) (q : Fin B) :
    ∑ k : (DotDims.plain A K B).contr.Idx, f ((DotDims.plain A K B).lhsIdx (ix2 p q) k) * g ((DotDims.plain A K B).rhsIdx (ix2 p q) k)
      = ∑ k : Fin K, f (ix2 p k) * g (ix2 k q) := by
  rw [← Equiv.sum_comp (contrEquiv1 (DotDims.plain A K B) K plain_rank plain_size).symm]
  refine Finset.sum_congr rfl fun k _ => ?_
  rw [plain_lhs, plain_rhs]

/-- A product into the zero accumulator, at `(p, q)`: `∑ k, lhs (p, k) · rhs (k, q)`. -/
theorem matmul_cols_zero_apply {φ₁ φ₂ : FTy} (d : DotDims ⟨2, ![A, K]⟩ ⟨2, ![K, B]⟩ ⟨2, ![A, B]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (lhs : FVec Ideal ⟨2, ![A, K]⟩ φ₁) (rhs : FVec Ideal ⟨2, ![K, B]⟩ φ₂)
    (p : Fin A) (q : Fin B) :
    FloatOps.matmul d prec lhs rhs (constant ⟨2, ![A, B]⟩ .f32 0x00000000#32) (ix2 p q) = ∑ k : Fin K, lhs (ix2 p k) * rhs (ix2 k q) := by
  rw [eq_plain d hlc hrc hln hrn hlb hrb, Ideal.matmul_constant_zero_apply]
  exact plain_sum lhs rhs p q

/-! ## Rows by rows: `[A, K] × [B, K]`, dimension numbers `[1] × [1]` -/

/-- Dimension numbers `[1] × [1]`, free axes `[0]` and `[0]`, no batch: the record is `DotDims.transposedRhs`. -/
theorem eq_transposedRhs (d : DotDims ⟨2, ![A, K]⟩ ⟨2, ![B, K]⟩ ⟨2, ![A, B]⟩)
    (hlc : d.lhsContracting = [1]) (hrc : d.rhsContracting = [1]) (hln : d.lhsNonContracting = [0])
    (hrn : d.rhsNonContracting = [0]) (hlb : d.lhsBatch = []) (hrb : d.rhsBatch = []) : d = DotDims.transposedRhs A K B := by
  cases d
  simp only at hlc hrc hln hrn hlb hrb
  subst hlc hrc hln hrn hlb hrb
  rfl

theorem rows_rank : (DotDims.transposedRhs A K B).contr.rank = 1 := rfl
theorem rows_size : (DotDims.transposedRhs A K B).contr.size ⟨0, by rw [rows_rank]; exact Nat.one_pos⟩ = K := rfl

theorem rows_lhs (p : Fin A) (q : Fin B) (k : Fin K) :
    (DotDims.transposedRhs A K B).lhsIdx (ix2 p q) ((contrEquiv1 (DotDims.transposedRhs A K B) K rows_rank rows_size).symm k) = ix2 p k := by
  funext a
  apply Fin.ext
  match a with
  | ⟨0, _⟩ => rfl
  | ⟨1, _⟩ => rfl

theorem rows_rhs (p : Fin A) (q : Fin B) (k : Fin K) :
    (DotDims.transposedRhs A K B).rhsIdx (ix2 p q) ((contrEquiv1 (DotDims.transposedRhs A K B) K rows_rank rows_size).symm k) = ix2 q k := by
  funext a
  apply Fin.ext
  match a with
  | ⟨0, _⟩ => rfl
  | ⟨1, _⟩ => rfl

/-- The sum over the contraction index is the sum over `k : Fin K` of `f (p, k) · g (q, k)`. -/
theorem rows_sum (f : (⟨2, ![A, K]⟩ : Shape).Idx → EReal) (g : (⟨2, ![B, K]⟩ : Shape).Idx → EReal) (p : Fin A) (q : Fin B) :
    ∑ k : (DotDims.transposedRhs A K B).contr.Idx,
        f ((DotDims.transposedRhs A K B).lhsIdx (ix2 p q) k) * g ((DotDims.transposedRhs A K B).rhsIdx (ix2 p q) k)
      = ∑ k : Fin K, f (ix2 p k) * g (ix2 q k) := by
  rw [← Equiv.sum_comp (contrEquiv1 (DotDims.transposedRhs A K B) K rows_rank rows_size).symm]
  refine Finset.sum_congr rfl fun k _ => ?_
  rw [rows_lhs, rows_rhs]

/-- A product into the zero accumulator with the right operand contracted on its last axis, at `(p, q)`:
    `∑ k, lhs (p, k) · rhs (q, k)`. -/
theorem matmul_rows_zero_apply {φ₁ φ₂ : FTy} (d : DotDims ⟨2, ![A, K]⟩ ⟨2, ![B, K]⟩ ⟨2, ![A, B]⟩)
    (hlc : d.lhsContracting = [1]) (hrc : d.rhsContracting = [1]) (hln : d.lhsNonContracting = [0])
    (hrn : d.rhsNonContracting = [0]) (hlb : d.lhsBatch = []) (hrb : d.rhsBatch = [])
    (prec : Option ContractPrecision) (lhs : FVec Ideal ⟨2, ![A, K]⟩ φ₁) (rhs : FVec Ideal ⟨2, ![B, K]⟩ φ₂)
    (p : Fin A) (q : Fin B) :
    FloatOps.matmul d prec lhs rhs (constant ⟨2, ![A, B]⟩ .f32 0x00000000#32) (ix2 p q) = ∑ k : Fin K, lhs (ix2 p k) * rhs (ix2 q k) := by
  rw [eq_transposedRhs d hlc hrc hln hrn hlb hrb, Ideal.matmul_constant_zero_apply]
  exact rows_sum lhs rhs p q

end Cert.LibDotFormats

end
-- ==== Proof.RegionMM.lean ====
/-
  The two matrix-product regions, each read as one whole-array function of the arrays it is entered with.

  Each region walks 20 grid points. At point `t` it stages rows `5000 t … 5000 t + 4999` of a `100000 × 128` array
  `X` (all 128 columns) and the whole of a `128 × 128` array `W`, multiplies the staged rows by `W` into a zero
  accumulator, and writes the `5000 × 128` product back over the same rows of the output array. Entry `(p, q)` of the
  product of block `t` is `∑ k, X (5000 t + p, k) · W (k, q)`, which is entry `(5000 t + p, q)` of the product of the
  whole arrays; the 20 row blocks tile the output (row `r` lies in block `r / 5000`), so after the region the output
  array is `X · W`. On the extended reals the narrowing of the operands to half precision before the product is the
  identity on values, so the sum is over the operands' own entries.
-/
import proofs.«123345_j7421703487979_1_alg».proof.Proof.Gen.KernelIdeal.Frame
import proofs.«123345_j7421703487979_1_alg».proof.Proof.Spec
import proofs.«123345_j7421703487979_1_alg».proof.Proof.LibDotFormats
import Idealize.ShloMosaic.Lib.Pipeline.Value

set_option maxRecDepth 16384

noncomputable section

namespace Cert.KernelIdeal.RegionValue

open Cert.KernelIdeal Cert.KernelIdeal.Gen
open Idealize.ShloMosaic Idealize.ShloMosaic.TcCoe Idealize.ShloMosaic.ValueIdx
open Idealize.ShloMosaic.Pipeline (Dat Cfg Window)
open scoped BigOperators

variable (V : (c : Dev nD) → (b : Ref sig .tc) → Buf (Elt Ideal) ((c : Thread nD τ).loc b))

/-- The body's loads and its store start at offset `(0, 0)` of their staging buffers. -/
theorem zero_offsets_mm : (![0, 0] : Fin 2 → Nat) = fun _ => 0 := funext fun a => by fin_cases a <;> rfl

/-! ## The first product: `main_arg0` times `main_arg2` into `main_v30` -/

/-- What the body stores, at `(p, q)`: the sum over `k` of the staged rows' `(p, k)` entry times the staged
    matrix's `(k, q)` entry (the half-precision narrowing is the identity on the extended reals, the accumulator
    is zero). -/
theorem product_fst_apply (x0 : Vec Ideal S5000x128 .f32) (x1 : Vec Ideal S128x128 .f32) (p : Fin 5000) (q : Fin 128) :
    (k0_pay1 x0 x1 : Vec Ideal S5000x128 .f32) (ix2 p q) = ∑ k : Fin 128, x0 (ix2 p k) * x1 (ix2 k q) := by
  unfold k0_pay1
  exact Cert.LibDotFormats.matmul_cols_zero_apply dot_S5000x128_S128x128_S5000x128_1_0_0_1_n_n rfl rfl rfl rfl rfl rfl none
    (truncf .bf16 x0 bitsLt_bf16_f32) (truncf .bf16 x1 bitsLt_bf16_f32) p q

/-- The index maps over the 20 grid points: the row operand and the output are at block `(t, 0)`, the matrix
    operand always at block `(0, 0)`. -/
theorem index_maps_fst : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The staged rows at point `t`: entry `(p, k)` of the block is entry `(5000 t + p, k)` of the array. -/
theorem rows_block_fst (c : Dev nD) (t : Fin cfg0.N) (p : Fin 5000) (k : Fin 128) (i : S100000x128.Idx)
    (h0 : (i 0).val = 5000 * t.val + p.val) (h1 : (i 1).val = k.val) :
    (iblk0 (F := Ideal) V c 0 t : Vec Ideal S5000x128 .f32) (ix2 p k) = (V c main_arg0 : S100000x128.Idx → EReal) i := by
  obtain ⟨e0, e1, -⟩ := index_maps_fst t
  show V c main_arg0 (((cfg0.win 0).blk t).view.emb (ix2 p k)) = V c main_arg0 i
  refine congrArg _ ?_
  funext a; apply Fin.ext
  match a with
  | ⟨0, _⟩ => show win0_0.index t (0 : Fin 2) * 5000 + 1 * p.val = (i 0).val; omega
  | ⟨1, _⟩ => show win0_0.index t (1 : Fin 2) * 128 + 1 * k.val = (i 1).val; omega

/-- The staged matrix at any point is the whole array. -/
theorem matrix_block_fst (c : Dev nD) (t : Fin cfg0.N) (k : Fin 128) (q : Fin 128) :
    (iblk0 (F := Ideal) V c 1 t : Vec Ideal S128x128 .f32) (ix2 k q) = (V c main_arg2 : S128x128.Idx → EReal) (ix2 k q) := by
  obtain ⟨-, -, e2, e3, -⟩ := index_maps_fst t
  show V c main_arg2 (((cfg0.win 1).blk t).view.emb (ix2 k q)) = V c main_arg2 (ix2 k q)
  refine congrArg _ ?_
  funext a; apply Fin.ext
  match a with
  | ⟨0, _⟩ => show win0_1.index t (0 : Fin 2) * 128 + 1 * k.val = k.val; omega
  | ⟨1, _⟩ => show win0_1.index t (1 : Fin 2) * 128 + 1 * q.val = q.val; omega

/-- What point `t` writes back is block `t` of the product of the whole arrays. -/
theorem written_block_fst (c : Dev nD) (t : Fin cfg0.N) :
    (dat0 (F := Ideal) V c).flushed 2 t
      = ((cfg0.win 2).blk t).view.read (Elt Ideal) (Cert.Spec.mm (V c main_arg0) (V c main_arg2)) := by
  show (cfg0.win 2).cut (grid0.coords t) ((dat0 V c).after 2 t) = _
  rw [after0_2]
  unfold out0_2
  rw [View.canon_unit_zero zero_offsets_mm]
  simp only [View.ld_unit_zero (S := S5000x128) zero_offsets_mm, View.ld_unit_zero (S := S128x128) zero_offsets_mm]
  funext y
  obtain ⟨p, q, rfl⟩ : ∃ (p : Fin 5000) (q : Fin 128), y = ix2 p q := ⟨y 0, y 1, eq_ix2 y⟩
  show (k0_pay1 (iblk0 V c 0 t) (iblk0 V c 1 t) : Vec Ideal S5000x128 .f32) (ix2 p q)
    = Cert.Spec.mm (V c main_arg0) (V c main_arg2) (((cfg0.win 2).blk t).view.emb (ix2 p q))
  rw [product_fst_apply]
  obtain ⟨-, -, -, -, e4, e5⟩ := index_maps_fst t
  have ht : t.val < 20 := t.isLt
  have hp : p.val < 5000 := p.isLt
  -- entry (p, q) of the output's block t sits at (5000 t + p, q) of the output array
  have hplace : ((cfg0.win 2).blk t).view.emb (ix2 p q)
      = (ix2 (⟨5000 * t.val + p.val, by omega⟩ : Fin 100000) q : S100000x128.Idx) := by
    funext a; apply Fin.ext
    match a with
    | ⟨0, _⟩ => show win0_2.index t (0 : Fin 2) * 5000 + 1 * p.val = 5000 * t.val + p.val; omega
    | ⟨1, _⟩ => show win0_2.index t (1 : Fin 2) * 128 + 1 * q.val = q.val; omega
  rw [hplace, Cert.Spec.mm_apply]
  refine Finset.sum_congr rfl fun k _ => ?_
  rw [rows_block_fst V c t p k (ix2 (⟨5000 * t.val + p.val, by omega⟩ : Fin 100000) k) rfl rfl, matrix_block_fst V c t k q]

/-- An index of the output array is in point `t`'s block iff each coordinate is in the block's range on its axis. -/
theorem mem_block_fst (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v30).slice (win0_2.rect t)).set ↔ _
  rw [View.set_slice_whole, Rect.mem_set_unit]
  exact Iff.rfl

/-- The 20 row blocks tile the output: row `r` is in block `r / 5000`, every column in every block. -/
theorem blocks_cover_fst (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  let t : Fin cfg0.N := ⟨(i 0).val / 5000, by show _ < 20; omega⟩
  obtain ⟨-, -, -, -, e4, e5⟩ := index_maps_fst t
  have ht : t.val = (i 0).val / 5000 := rfl
  refine ⟨t, flush0_2 t, ?_⟩
  rw [mem_block_fst]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- After the region the output array is the product of the two arrays the region was entered with. -/
theorem arr0 (c : Dev nD) : (dat0 (F := Ideal) V c).arrAt 2 cfg0.N = Cert.Spec.mm (V c main_arg0) (V c main_arg2) :=
  (dat0 (F := Ideal) V c).arrAt_eq_of_cover 2 (Cert.Spec.mm (V c main_arg0) (V c main_arg2)) (fun t _ => written_block_fst V c t) blocks_cover_fst

/-! ## The second product: `main_v45` times `main_v46` into `main_v48` -/

/-- What the body stores, at `(p, q)`: the sum over `k` of the staged rows' `(p, k)` entry times the staged
    matrix's `(k, q)` entry (the half-precision narrowing is the identity on the extended reals, the accumulator
    is zero). -/
theorem product_snd_apply (x0 : Vec Ideal S5000x128 .f32) (x1 : Vec Ideal S128x128 .f32) (p : Fin 5000) (q : Fin 128) :
    (k2_pay1 x0 x1 : Vec Ideal S5000x128 .f32) (ix2 p q) = ∑ k : Fin 128, x0 (ix2 p k) * x1 (ix2 k q) := by
  unfold k2_pay1
  simp only [shapeCast_self]
  exact Cert.LibDotFormats.matmul_cols_zero_apply dot_S5000x128_S128x128_S5000x128_1_0_0_1_n_n rfl rfl rfl rfl rfl rfl none
    (truncf .bf16 x0 bitsLt_bf16_f32) (truncf .bf16 x1 bitsLt_bf16_f32) p q

/-- The index maps over the 20 grid points: the row operand and the output are at block `(t, 0)`, the matrix
    operand always at block `(0, 0)`. -/
theorem index_maps_snd : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The staged rows at point `t`: entry `(p, k)` of the block is entry `(5000 t + p, k)` of the array. -/
theorem rows_block_snd (c : Dev nD) (t : Fin cfg2.N) (p : Fin 5000) (k : Fin 128) (i : S100000x128.Idx)
    (h0 : (i 0).val = 5000 * t.val + p.val) (h1 : (i 1).val = k.val) :
    (iblk2 (F := Ideal) V c 0 t : Vec Ideal S5000x128 .f32) (ix2 p k) = (V c main_v45 : S100000x128.Idx → EReal) i := by
  obtain ⟨e0, e1, -⟩ := index_maps_snd t
  show V c main_v45 (((cfg2.win 0).blk t).view.emb (ix2 p k)) = V c main_v45 i
  refine congrArg _ ?_
  funext a; apply Fin.ext
  match a with
  | ⟨0, _⟩ => show win2_0.index t (0 : Fin 2) * 5000 + 1 * p.val = (i 0).val; omega
  | ⟨1, _⟩ => show win2_0.index t (1 : Fin 2) * 128 + 1 * k.val = (i 1).val; omega

/-- The staged matrix at any point is the whole array. -/
theorem matrix_block_snd (c : Dev nD) (t : Fin cfg2.N) (k : Fin 128) (q : Fin 128) :
    (iblk2 (F := Ideal) V c 1 t : Vec Ideal S128x128 .f32) (ix2 k q) = (V c main_v46 : S128x128.Idx → EReal) (ix2 k q) := by
  obtain ⟨-, -, e2, e3, -⟩ := index_maps_snd t
  show V c main_v46 (((cfg2.win 1).blk t).view.emb (ix2 k q)) = V c main_v46 (ix2 k q)
  refine congrArg _ ?_
  funext a; apply Fin.ext
  match a with
  | ⟨0, _⟩ => show win2_1.index t (0 : Fin 2) * 128 + 1 * k.val = k.val; omega
  | ⟨1, _⟩ => show win2_1.index t (1 : Fin 2) * 128 + 1 * q.val = q.val; omega

/-- What point `t` writes back is block `t` of the product of the whole arrays. -/
theorem written_block_snd (c : Dev nD) (t : Fin cfg2.N) :
    (dat2 (F := Ideal) V c).flushed 2 t
      = ((cfg2.win 2).blk t).view.read (Elt Ideal) (Cert.Spec.mm (V c main_v45) (V c main_v46)) := by
  show (cfg2.win 2).cut (grid2.coords t) ((dat2 V c).after 2 t) = _
  rw [after2_2]
  unfold out2_2
  rw [View.canon_unit_zero zero_offsets_mm]
  simp only [View.ld_unit_zero (S := S5000x128) zero_offsets_mm, View.ld_unit_zero (S := S128x128) zero_offsets_mm]
  funext y
  obtain ⟨p, q, rfl⟩ : ∃ (p : Fin 5000) (q : Fin 128), y = ix2 p q := ⟨y 0, y 1, eq_ix2 y⟩
  show (k2_pay1 (iblk2 V c 0 t) (iblk2 V c 1 t) : Vec Ideal S5000x128 .f32) (ix2 p q)
    = Cert.Spec.mm (V c main_v45) (V c main_v46) (((cfg2.win 2).blk t).view.emb (ix2 p q))
  rw [product_snd_apply]
  obtain ⟨-, -, -, -, e4, e5⟩ := index_maps_snd t
  have ht : t.val < 20 := t.isLt
  have hp : p.val < 5000 := p.isLt
  -- entry (p, q) of the output's block t sits at (5000 t + p, q) of the output array
  have hplace : ((cfg2.win 2).blk t).view.emb (ix2 p q)
      = (ix2 (⟨5000 * t.val + p.val, by omega⟩ : Fin 100000) q : S100000x128.Idx) := by
    funext a; apply Fin.ext
    match a with
    | ⟨0, _⟩ => show win2_2.index t (0 : Fin 2) * 5000 + 1 * p.val = 5000 * t.val + p.val; omega
    | ⟨1, _⟩ => show win2_2.index t (1 : Fin 2) * 128 + 1 * q.val = q.val; omega
  rw [hplace, Cert.Spec.mm_apply]
  refine Finset.sum_congr rfl fun k _ => ?_
  rw [rows_block_snd V c t p k (ix2 (⟨5000 * t.val + p.val, by omega⟩ : Fin 100000) k) rfl rfl, matrix_block_snd V c t k q]

/-- An index of the output array is in point `t`'s block iff each coordinate is in the block's range on its axis. -/
theorem mem_block_snd (t : Fin cfg2.N) (i : S100000x128.Idx) :
    i ∈ ((cfg2.win 2).blk t).view.set ↔ ∀ a : Fin 2, win2_2.index t a * S5000x128.size a ≤ (i a).val ∧ (i a).val < win2_2.index t a * S5000x128.size a + S5000x128.size a := by
  show i ∈ ((View.whole main_v48).slice (win2_2.rect t)).set ↔ _
  rw [View.set_slice_whole, Rect.mem_set_unit]
  exact Iff.rfl

/-- The 20 row blocks tile the output: row `r` is in block `r / 5000`, every column in every block. -/
theorem blocks_cover_snd (i : S100000x128.Idx) :
    ∃ t : Fin cfg2.N, (cfg2.win 2).flush t = true ∧ i ∈ ((cfg2.win 2).blk t).view.set := by
  have hi0 : (i 0).val < 100000 := (i 0).isLt
  have hi1 : (i 1).val < 128 := (i 1).isLt
  let t : Fin cfg2.N := ⟨(i 0).val / 5000, by show _ < 20; omega⟩
  obtain ⟨-, -, -, -, e4, e5⟩ := index_maps_snd t
  have ht : t.val = (i 0).val / 5000 := rfl
  refine ⟨t, flush2_2 t, ?_⟩
  rw [mem_block_snd]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 128 ≤ (i 1).val ∧ (i 1).val < win2_2.index t (1 : Fin 2) * 128 + 128; omega

/-- After the region the output array is the product of the two arrays the region was entered with. -/
theorem arr2 (c : Dev nD) : (dat2 (F := Ideal) V c).arrAt 2 cfg2.N = Cert.Spec.mm (V c main_v45) (V c main_v46) :=
  (dat2 (F := Ideal) V c).arrAt_eq_of_cover 2 (Cert.Spec.mm (V c main_v45) (V c main_v46)) (fun t _ => written_block_snd V c t) blocks_cover_snd

end Cert.KernelIdeal.RegionValue
end
-- ==== Proof.RegionBias.lean ====
/-
  The two bias steps as whole-array functions.

  Each of the two steps works on a 100000 × 128 array twenty times, 5000 rows at a time: to every row of the block it
  adds the one bias row, and the first step then takes the maximum with zero. Read element by element on the extended
  reals, block `t`'s element `(p, q)` is `X (5000 t + p, q) + b (0, q)` (under `max · 0` in the first step). The blocks
  are disjoint and fill the array (row `r` lies in block `r / 5000`), so the array the step leaves is that one function
  at every index: `biasRelu X b` after the first step, `biasAdd X b` after the second.
-/
import proofs.«123345_j7421703487979_1_alg».proof.Proof.Gen.KernelIdeal.Frame
import proofs.«123345_j7421703487979_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.RegionValue

open Cert.KernelIdeal Cert.KernelIdeal.Gen
open Idealize.ShloMosaic Idealize.ShloMosaic.TcCoe Idealize.ShloMosaic.ValueIdx
open Idealize.ShloMosaic.Pipeline (Dat Cfg Window)

/-- The zero offsets of a whole-block access, as the constant function. -/
theorem zero_offsets : (![0, 0] : Fin 2 → Nat) = fun _ => 0 := funext fun a => by fin_cases a <;> rfl

/-! ## The two bodies at one element -/

/-- Bias and rectifier on a block: element `(p, q)` is `max (x (p, q) + b (0, q)) 0`. -/
theorem biasRelu_block_apply (x0 : Vec Ideal S5000x128 .f32) (x1 : Vec Ideal S1x128 .f32) (p : Fin 5000) (q : Fin 128) :
    k1_pay1 (F := Ideal) x0 x1 (ix2 p q) = max (x0 (ix2 p q) + x1 (ix2 0 q)) 0 := by
  show maximumf (F := Ideal) (addf (F := Ideal) (shapeCast S5000x128 x0 _) (broadcastTo S5000x128 (shapeCast S1x128 x1 _) _))
    (broadcast S5000x128 (Scalar.ofBits (F := Ideal) .f32 0x00000000#32)) (ix2 p q) = _
  rw [maximumf_apply, addf_apply, broadcast_apply, shapeCast_self, shapeCast_self]
  rw [broadcastTo_apply x1 _ (ix2 p q) (ix2 0 q) (fun a => by
    match a with
    | ⟨0, _⟩ => rfl
    | ⟨1, _⟩ => rfl)]
  show max _ (Ideal.ofBits .f32 0x00000000#32) = _
  rw [Idealize.ShloMosaic.Ideal.ofBits_zero_f32]

/-- Bias alone on a block: element `(p, q)` is `x (p, q) + b (0, q)`. -/
theorem biasAdd_block_apply (x0 : Vec Ideal S5000x128 .f32) (x1 : Vec Ideal S1x128 .f32) (p : Fin 5000) (q : Fin 128) :
    k3_pay1 (F := Ideal) x0 x1 (ix2 p q) = x0 (ix2 p q) + x1 (ix2 0 q) := by
  show addf (F := Ideal) (shapeCast S5000x128 x0 _) (broadcastTo S5000x128 (shapeCast S1x128 x1 _) _) (ix2 p q) = _
  rw [addf_apply, shapeCast_self, shapeCast_self]
  rw [broadcastTo_apply x1 _ (ix2 p q) (ix2 0 q) (fun a => by
    match a with
    | ⟨0, _⟩ => rfl
    | ⟨1, _⟩ => rfl)]

variable (V : (c : Dev nD) → (b : Ref sig .tc) → Buf (Elt Ideal) ((c : Thread nD τ).loc b))

/-! ## Region 1: bias and rectifier, block of rows by block of rows -/

/-- The index maps over the grid: at point `t` the two row-block windows sit at block `(t, 0)`, the bias row's
    window at `(0, 0)`. -/
theorem block_index1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point `t` writes back is block `t` of the whole-array function: the input's block is read at the rows the
    output's block holds, the bias row is the same whole row at every point. -/
theorem written_back1 (c : Dev nD) (t : Fin cfg1.N) :
    (dat1 (F := Ideal) V c).flushed 2 t
      = ((cfg1.win 2).blk t).view.read (Elt Ideal) (Cert.Spec.biasRelu (V c main_v43) (V c main_v44)) := by
  show (cfg1.win 2).cut (grid1.coords t) ((dat1 V c).after 2 t) = _
  rw [after1_2]
  unfold out1_2
  rw [View.canon_unit_zero zero_offsets]
  simp only [View.ld_unit_zero (S := S5000x128) zero_offsets, View.ld_unit_zero (S := S1x128) zero_offsets]
  obtain ⟨a0, a1, b0, b1, o0, o1⟩ := block_index1 t
  funext y
  obtain ⟨p, q, rfl⟩ : ∃ (p : Fin 5000) (q : Fin 128), y = ix2 p q := ⟨y 0, y 1, eq_ix2 y⟩
  show k1_pay1 (iblk1 V c 0 t) (iblk1 V c 1 t) (ix2 p q)
    = Cert.Spec.biasRelu (V c main_v43) (V c main_v44) (((cfg1.win 2).blk t).view.emb (ix2 p q))
  rw [biasRelu_block_apply]
  have hx : iblk1 V c 0 t (ix2 p q) = V c main_v43 (((cfg1.win 2).blk t).view.emb (ix2 p q)) := by
    show V c main_v43 (((cfg1.win 0).blk t).view.emb (ix2 p q)) = V c main_v43 (((cfg1.win 2).blk t).view.emb (ix2 p q))
    refine congrArg _ (funext fun a => Fin.ext ?_)
    match a with
    | ⟨0, _⟩ =>
      show win1_0.index t (0 : Fin 2) * 5000 + 1 * p.val = win1_2.index t (0 : Fin 2) * 5000 + 1 * p.val
      omega
    | ⟨1, _⟩ =>
      show win1_0.index t (1 : Fin 2) * 128 + 1 * q.val = win1_2.index t (1 : Fin 2) * 128 + 1 * q.val
      omega
  have hb : iblk1 V c 1 t (ix2 0 q) = V c main_v44 (ix2 0 q) := by
    show V c main_v44 (((cfg1.win 1).blk t).view.emb (ix2 0 q)) = V c main_v44 (ix2 0 q)
    refine congrArg _ (funext fun a => Fin.ext ?_)
    match a with
    | ⟨0, _⟩ =>
      show win1_1.index t (0 : Fin 2) * 1 + 1 * (0 : Fin 1).val = (0 : Fin 1).val
      omega
    | ⟨1, _⟩ =>
      show win1_1.index t (1 : Fin 2) * 128 + 1 * q.val = q.val
      omega
  have hq : (((cfg1.win 2).blk t).view.emb (ix2 p q)) 1 = q := Fin.ext (by
    show win1_2.index t (1 : Fin 2) * 128 + 1 * q.val = q.val
    omega)
  rw [hx, hb]
  unfold Cert.Spec.biasRelu
  rw [hq]

/-- An index of the array is in point `t`'s block iff each coordinate is in the block's range on its axis. -/
theorem mem_block1 (t : Fin cfg1.N) (i : S100000x128.Idx) :
    i ∈ ((cfg1.win 2).blk t).view.set ↔ ∀ a : Fin 2, win1_2.index t a * S5000x128.size a ≤ (i a).val
      ∧ (i a).val < win1_2.index t a * S5000x128.size a + S5000x128.size a := by
  show i ∈ ((View.whole main_v45).slice (win1_2.rect t)).set ↔ _
  rw [View.set_slice_whole, Rect.mem_set_unit]
  exact Iff.rfl

/-- Every index of the array is in some point's block: row `r` is in block `r / 5000`. -/
theorem rows_covered1 (i : S100000x128.Idx) :
    ∃ t : Fin cfg1.N, (cfg1.win 2).flush t = true ∧ i ∈ ((cfg1.win 2).blk t).view.set := by
  have hr : (i 0).val < 100000 := idx2_lt0 i
  have hc : (i 1).val < 128 := idx2_lt1 i
  have hN : (i 0).val / 5000 < cfg1.N := by show _ < 20; omega
  obtain ⟨-, -, -, -, o0, o1⟩ := block_index1 ⟨(i 0).val / 5000, hN⟩
  have o0' : win1_2.index ⟨(i 0).val / 5000, hN⟩ (0 : Fin 2) = (i 0).val / 5000 := o0
  refine ⟨⟨(i 0).val / 5000, hN⟩, flush1_2 _, ?_⟩
  rw [mem_block1]
  intro a
  match a with
  | ⟨0, _⟩ =>
    show win1_2.index ⟨(i 0).val / 5000, hN⟩ (0 : Fin 2) * 5000 ≤ (i 0).val
      ∧ (i 0).val < win1_2.index ⟨(i 0).val / 5000, hN⟩ (0 : Fin 2) * 5000 + 5000
    omega
  | ⟨1, _⟩ =>
    show win1_2.index ⟨(i 0).val / 5000, hN⟩ (1 : Fin 2) * 128 ≤ (i 1).val
      ∧ (i 1).val < win1_2.index ⟨(i 0).val / 5000, hN⟩ (1 : Fin 2) * 128 + 128
    omega

/-- The array the first bias step leaves: the bias row added to every row, then the rectifier. -/
theorem arr1 (c : Dev nD) : (dat1 (F := Ideal) V c).arrAt 2 cfg1.N = Cert.Spec.biasRelu (V c main_v43) (V c main_v44) :=
  (dat1 V c).arrAt_eq_of_cover 2 _ (fun t _ => written_back1 V c t) rows_covered1

/-! ## Region 3: bias alone, block of rows by block of rows -/

/-- The index maps over the grid: at point `t` the two row-block windows sit at block `(t, 0)`, the bias row's
    window at `(0, 0)`. -/
theorem block_index3 : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What point `t` writes back is block `t` of the whole-array function: the input's block is read at the rows the
    output's block holds, the bias row is the same whole row at every point. -/
theorem written_back3 (c : Dev nD) (t : Fin cfg3.N) :
    (dat3 (F := Ideal) V c).flushed 2 t
      = ((cfg3.win 2).blk t).view.read (Elt Ideal) (Cert.Spec.biasAdd (V c main_v61) (V c main_v62)) := by
  show (cfg3.win 2).cut (grid3.coords t) ((dat3 V c).after 2 t) = _
  rw [after3_2]
  unfold out3_2
  rw [View.canon_unit_zero zero_offsets]
  simp only [View.ld_unit_zero (S := S5000x128) zero_offsets, View.ld_unit_zero (S := S1x128) zero_offsets]
  obtain ⟨a0, a1, b0, b1, o0, o1⟩ := block_index3 t
  funext y
  obtain ⟨p, q, rfl⟩ : ∃ (p : Fin 5000) (q : Fin 128), y = ix2 p q := ⟨y 0, y 1, eq_ix2 y⟩
  show k3_pay1 (iblk3 V c 0 t) (iblk3 V c 1 t) (ix2 p q)
    = Cert.Spec.biasAdd (V c main_v61) (V c main_v62) (((cfg3.win 2).blk t).view.emb (ix2 p q))
  rw [biasAdd_block_apply]
  have hx : iblk3 V c 0 t (ix2 p q) = V c main_v61 (((cfg3.win 2).blk t).view.emb (ix2 p q)) := by
    show V c main_v61 (((cfg3.win 0).blk t).view.emb (ix2 p q)) = V c main_v61 (((cfg3.win 2).blk t).view.emb (ix2 p q))
    refine congrArg _ (funext fun a => Fin.ext ?_)
    match a with
    | ⟨0, _⟩ =>
      show win3_0.index t (0 : Fin 2) * 5000 + 1 * p.val = win3_2.index t (0 : Fin 2) * 5000 + 1 * p.val
      omega
    | ⟨1, _⟩ =>
      show win3_0.index t (1 : Fin 2) * 128 + 1 * q.val = win3_2.index t (1 : Fin 2) * 128 + 1 * q.val
      omega
  have hb : iblk3 V c 1 t (ix2 0 q) = V c main_v62 (ix2 0 q) := by
    show V c main_v62 (((cfg3.win 1).blk t).view.emb (ix2 0 q)) = V c main_v62 (ix2 0 q)
    refine congrArg _ (funext fun a => Fin.ext ?_)
    match a with
    | ⟨0, _⟩ =>
      show win3_1.index t (0 : Fin 2) * 1 + 1 * (0 : Fin 1).val = (0 : Fin 1).val
      omega
    | ⟨1, _⟩ =>
      show win3_1.index t (1 : Fin 2) * 128 + 1 * q.val = q.val
      omega
  have hq : (((cfg3.win 2).blk t).view.emb (ix2 p q)) 1 = q := Fin.ext (by
    show win3_2.index t (1 : Fin 2) * 128 + 1 * q.val = q.val
    omega)
  rw [hx, hb]
  unfold Cert.Spec.biasAdd
  rw [hq]

/-- An index of the array is in point `t`'s block iff each coordinate is in the block's range on its axis. -/
theorem mem_block3 (t : Fin cfg3.N) (i : S100000x128.Idx) :
    i ∈ ((cfg3.win 2).blk t).view.set ↔ ∀ a : Fin 2, win3_2.index t a * S5000x128.size a ≤ (i a).val
      ∧ (i a).val < win3_2.index t a * S5000x128.size a + S5000x128.size a := by
  show i ∈ ((View.whole main_v63).slice (win3_2.rect t)).set ↔ _
  rw [View.set_slice_whole, Rect.mem_set_unit]
  exact Iff.rfl

/-- Every index of the array is in some point's block: row `r` is in block `r / 5000`. -/
theorem rows_covered3 (i : S100000x128.Idx) :
    ∃ t : Fin cfg3.N, (cfg3.win 2).flush t = true ∧ i ∈ ((cfg3.win 2).blk t).view.set := by
  have hr : (i 0).val < 100000 := idx2_lt0 i
  have hc : (i 1).val < 128 := idx2_lt1 i
  have hN : (i 0).val / 5000 < cfg3.N := by show _ < 20; omega
  obtain ⟨-, -, -, -, o0, o1⟩ := block_index3 ⟨(i 0).val / 5000, hN⟩
  have o0' : win3_2.index ⟨(i 0).val / 5000, hN⟩ (0 : Fin 2) = (i 0).val / 5000 := o0
  refine ⟨⟨(i 0).val / 5000, hN⟩, flush3_2 _, ?_⟩
  rw [mem_block3]
  intro a
  match a with
  | ⟨0, _⟩ =>
    show win3_2.index ⟨(i 0).val / 5000, hN⟩ (0 : Fin 2) * 5000 ≤ (i 0).val
      ∧ (i 0).val < win3_2.index ⟨(i 0).val / 5000, hN⟩ (0 : Fin 2) * 5000 + 5000
    omega
  | ⟨1, _⟩ =>
    show win3_2.index ⟨(i 0).val / 5000, hN⟩ (1 : Fin 2) * 128 ≤ (i 1).val
      ∧ (i 1).val < win3_2.index ⟨(i 0).val / 5000, hN⟩ (1 : Fin 2) * 128 + 128
    omega

/-- The array the second bias step leaves: the bias row added to every row. -/
theorem arr3 (c : Dev nD) : (dat3 (F := Ideal) V c).arrAt 2 cfg3.N = Cert.Spec.biasAdd (V c main_v61) (V c main_v62) :=
  (dat3 V c).arrAt_eq_of_cover 2 _ (fun t _ => written_back3 V c t) rows_covered3

end Cert.KernelIdeal.RegionValue
end
-- ==== Proof.LibPlainDot.lean ====
/-
  A matrix product contracted over ONE axis, read at an index.

  For an `A × K` left operand and a `K × B` right operand whose dimension numbers contract the left operand's
  second axis against the right operand's first (no batch axes), the contraction index has one coordinate
  `k : Fin K`, the left operand is read at `(p, k)` and the right one at `(k, q)`. So the sum over the contraction
  index that the product's value is stated with is the textbook `∑ k, f (p, k) · g (k, q)`, whatever the sizes.
  `eq_plain` identifies any record with these dimension numbers with the library's `DotDims.plain`, for which the
  two operand indices compute.
-/
import Idealize.ShloMosaic.PureOps.Ideal
import Idealize.ShloMosaic.PureOps.Ideal.Laws
import Idealize.ShloMosaic.Lib.ValueIdx

noncomputable section

namespace Cert.LibPlainDot

open Idealize.ShloMosaic Idealize.ShloMosaic.ValueIdx
open scoped BigOperators

variable {A K B : Nat}

/-- Dimension numbers `[1] × [0]`, free axes `[0]` and `[1]`, no batch: the record is `DotDims.plain`. -/
theorem eq_plain (d : DotDims ⟨2, ![A, K]⟩ ⟨2, ![K, B]⟩ ⟨2, ![A, B]⟩)
    (hlc : d.lhsContracting = [1]) (hrc : d.rhsContracting = [0]) (hln : d.lhsNonContracting = [0])
    (hrn : d.rhsNonContracting = [1]) (hlb : d.lhsBatch = []) (hrb : d.rhsBatch = []) : d = DotDims.plain A K B := by
  cases d
  simp only at hlc hrc hln hrn hlb hrb
  subst hlc hrc hln hrn hlb hrb
  rfl

/-- The contraction shape has one axis … -/
theorem plain_rank : (DotDims.plain A K B).contr.rank = 1 := rfl
/-- … of extent `K`. -/
theorem plain_size : (DotDims.plain A K B).contr.size ⟨0, by rw [plain_rank]; exact Nat.one_pos⟩ = K := rfl

/-- At result index `(p, q)` and contraction coordinate `k` the left operand is read at `(p, k)`. -/
theorem plain_lhs (p : Fin A) (q : Fin B) (k : Fin K) :
    (DotDims.plain A K B).lhsIdx (ix2 p q) ((contrEquiv1 (DotDims.plain A K B) K plain_rank plain_size).symm k) = ix2 p k := by
  funext a
  apply Fin.ext
  match a with
  | ⟨0, _⟩ => rfl
  | ⟨1, _⟩ => rfl

/-- At result index `(p, q)` and contraction coordinate `k` the right operand is read at `(k, q)`. -/
theorem plain_rhs (p : Fin A) (q : Fin B) (k : Fin K) :
    (DotDims.plain A K B).rhsIdx (ix2 p q) ((contrEquiv1 (DotDims.plain A K B) K plain_rank plain_size).symm k) = ix2 k q := by
  funext a
  apply Fin.ext
  match a with
  | ⟨0, _⟩ => rfl
  | ⟨1, _⟩ => rfl

/-- The sum over the contraction index is the sum over `k : Fin K` of `f (p, k) · g (k, q)`. -/
theorem plain_sum (f : (⟨2, ![A, K]⟩ : Shape).Idx → EReal) (g : (⟨2, ![K, B]⟩ : Shape).Idx → EReal) (p : Fin A) (q : Fin B) :
    ∑ k : (DotDims.plain A K B).contr.Idx, f ((DotDims.plain A K B).lhsIdx (ix2 p q) k) * g ((DotDims.plain A K B).rhsIdx (ix2 p q) k)
      = ∑ k : Fin K, f (ix2 p k) * g (ix2 k q) := by
  rw [← Equiv.sum_comp (contrEquiv1 (DotDims.plain A K B) K plain_rank plain_size).symm]
  refine Finset.sum_congr rfl fun k _ => ?_
  rw [plain_lhs, plain_rhs]

/-- A block product into the zero accumulator, at `(p, q)`: `∑ k, lhs (p, k) · rhs (k, q)`. -/
theorem matmul_zero_apply (d : DotDims ⟨2, ![A, K]⟩ ⟨2, ![K, B]⟩ ⟨2, ![A, B]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (lhs : FVec Ideal ⟨2, ![A, K]⟩ .f32) (rhs : FVec Ideal ⟨2, ![K, B]⟩ .f32)
    (p : Fin A) (q : Fin B) :
    FloatOps.matmul d prec lhs rhs (constant ⟨2, ![A, B]⟩ .f32 0x00000000#32) (ix2 p q) = ∑ k : Fin K, lhs (ix2 p k) * rhs (ix2 k q) := by
  rw [eq_plain d hlc hrc hln hrn hlb hrb, Ideal.matmul_constant_zero_apply]
  exact plain_sum lhs rhs p q

/-- The host's product at `(p, q)`, whatever its schedule key: the same sum. -/
theorem dotGeneral_apply (d : DotDims ⟨2, ![A, K]⟩ ⟨2, ![K, B]⟩ ⟨2, ![A, B]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (sched : HostSchedule) (lhs : FVec Ideal ⟨2, ![A, K]⟩ .f32) (rhs : FVec Ideal ⟨2, ![K, B]⟩ .f32)
    (p : Fin A) (q : Fin B) :
    FloatOps.dotGeneral d prec sched lhs rhs (ix2 p q) = ∑ k : Fin K, lhs (ix2 p k) * rhs (ix2 k q) := by
  rw [eq_plain d hlc hrc hln hrn hlb hrb, Ideal.dotGeneral_apply]
  exact plain_sum lhs rhs p q

end Cert.LibPlainDot

end
-- ==== Proof.LibBroadcastInDim.lean ====
/-
  `broadcast_in_dim` between vectors, columns, rows and matrices, read at an index (any sizes, any element type).

  * an `[a]` vector placed along axis 0 of `[a, 1]`: entry `(i, u)` is the vector's entry `i`;
  * an `[a, 1]` column spread to `[a, b]`: entry `(i, j)` is the column's entry `(i, 0)`;
  * a `[b]` vector placed along axis 1 of `[1, b]`: entry `(u, j)` is the vector's entry `j`;
  * a `[1, b]` row spread to `[a, b]`: entry `(i, j)` is the row's entry `(0, j)`;
  * a scalar spread to any shape: every entry is the scalar.
  In each case the operand index keeps the coordinates on the axes the operand has and is zero on a unit axis
  (an axis of extent one has only the coordinate zero, so the two readings of such an axis agree).
-/
import Idealize.ShloMosaic.Lib.ValueIdx
import Idealize.ShloMosaic.Lib.Pipeline.Value

namespace Cert.LibBroadcastInDim

open Idealize.ShloMosaic Idealize.ShloMosaic.ValueIdx

variable {α : Type}

/-- An `[a]` vector placed along axis 0 of `[a, 1]` reads, at `(i, u)`, the vector at `i`. -/
theorem vec_col_apply {a : ℕ} (x : (⟨1, ![a]⟩ : Shape).Idx → α)
    (h : (⟨1, ![a]⟩ : Shape).BroadcastsInDim ⟨2, ![a, 1]⟩ (![0] : Fin 1 → Fin 2)) (i : Fin a) (u : Fin 1) :
    broadcastInDim ⟨2, ![a, 1]⟩ (![0] : Fin 1 → Fin 2) h x (ix2 i u) = x (ix1 i) := by
  refine broadcastInDim_apply _ h x (ix2 i u) (ix1 i) fun ax => ?_
  match ax with
  | ⟨0, _⟩ =>
    show i.val = if a = 1 then 0 else i.val
    split
    · have := i.isLt; omega
    · rfl

/-- An `[a, 1]` column spread to `[a, b]` reads, at `(i, j)`, the column at `(i, 0)`. -/
theorem col_mat_apply {a b : ℕ} (x : (⟨2, ![a, 1]⟩ : Shape).Idx → α)
    (h : (⟨2, ![a, 1]⟩ : Shape).BroadcastsInDim ⟨2, ![a, b]⟩ (![0, 1] : Fin 2 → Fin 2)) (i : Fin a) (j : Fin b) :
    broadcastInDim ⟨2, ![a, b]⟩ (![0, 1] : Fin 2 → Fin 2) h x (ix2 i j) = x (ix2 i (0 : Fin 1)) := by
  refine broadcastInDim_apply _ h x (ix2 i j) (ix2 i (0 : Fin 1)) fun ax => ?_
  match ax with
  | ⟨0, _⟩ =>
    show i.val = if a = 1 then 0 else i.val
    split
    · have := i.isLt; omega
    · rfl
  | ⟨1, _⟩ => rfl

/-- A `[b]` vector placed along axis 1 of `[1, b]` reads, at `(u, j)`, the vector at `j`. -/
theorem vec_row_apply {b : ℕ} (x : (⟨1, ![b]⟩ : Shape).Idx → α)
    (h : (⟨1, ![b]⟩ : Shape).BroadcastsInDim ⟨2, ![1, b]⟩ (![1] : Fin 1 → Fin 2)) (u : Fin 1) (j : Fin b) :
    broadcastInDim ⟨2, ![1, b]⟩ (![1] : Fin 1 → Fin 2) h x (ix2 u j) = x (ix1 j) := by
  refine broadcastInDim_apply _ h x (ix2 u j) (ix1 j) fun ax => ?_
  match ax with
  | ⟨0, _⟩ =>
    show j.val = if b = 1 then 0 else j.val
    split
    · have := j.isLt; omega
    · rfl

/-- A `[1, b]` row spread to `[a, b]` reads, at `(i, j)`, the row at `(0, j)`. -/
theorem row_mat_apply {a b : ℕ} (x : (⟨2, ![1, b]⟩ : Shape).Idx → α)
    (h : (⟨2, ![1, b]⟩ : Shape).BroadcastsInDim ⟨2, ![a, b]⟩ (![0, 1] : Fin 2 → Fin 2)) (i : Fin a) (j : Fin b) :
    broadcastInDim ⟨2, ![a, b]⟩ (![0, 1] : Fin 2 → Fin 2) h x (ix2 i j) = x (ix2 (0 : Fin 1) j) := by
  refine broadcastInDim_apply _ h x (ix2 i j) (ix2 (0 : Fin 1) j) fun ax => ?_
  match ax with
  | ⟨0, _⟩ => rfl
  | ⟨1, _⟩ =>
    show j.val = if b = 1 then 0 else j.val
    split
    · have := j.isLt; omega
    · rfl

/-- A scalar spread to any shape reads the scalar at every index. -/
theorem scalar_apply {t : Shape} (x : (⟨0, ![]⟩ : Shape).Idx → α)
    (h : (⟨0, ![]⟩ : Shape).BroadcastsInDim t (![] : Fin 0 → Fin t.rank)) (j : t.Idx) (k : (⟨0, ![]⟩ : Shape).Idx) :
    broadcastInDim t (![] : Fin 0 → Fin t.rank) h x j = x k :=
  broadcastInDim_apply _ h x j k fun ax => ax.elim0

end Cert.LibBroadcastInDim
-- ==== Proof.KTrace.lean ====
/-
  The idealized kernel's buffers at each boundary of @main, from the launch contents forward.

  @main is seven stretches of host lines around four kernel regions. At the boundary after each item the buffers the
  later items read are named here as functions of the eight argument arrays: the opening lines leave the reference's
  source list, target list and edge weights; the first product region leaves `x · W1`; the lines after it one
  message-passing step over that product, and the bias as a row; the first bias region the rectified hidden features,
  which are the reference's; then the head matrices and biases side by side, the fused product, one step over it, the
  fused bias added, and the two column halves. A buffer that an item does not write keeps its contents across it.
-/
import proofs.«123345_j7421703487979_1_alg».proof.Proof.KHost
import proofs.«123345_j7421703487979_1_alg».proof.Proof.RegionMM
import proofs.«123345_j7421703487979_1_alg».proof.Proof.RegionBias
import proofs.«123345_j7421703487979_1_alg».proof.Proof.LibPlainDot
import proofs.«123345_j7421703487979_1_alg».proof.Proof.LibBroadcastInDim
import Idealize.ShloMosaic.Lib.ValueLayout

set_option maxRecDepth 16384

noncomputable section

namespace Cert.KernelIdeal.Trace

open Cert.KernelIdeal Cert.KernelIdeal.Gen Cert.KernelIdeal.HostValue Cert.KernelIdeal.RegionValue
open Idealize.ShloMosaic Idealize.ShloMosaic.TcCoe Idealize.ShloMosaic.StableHlo Idealize.SL.Sem Idealize.ShloMosaic.ValueIdx

variable (m : (ℓ : Loc nD τ sig) → Buf (Elt Ideal) ℓ) (ρ : Dev nD → PrngReg) (c : Dev nD)

/-! ## The launch contents of the arguments -/

/-- Node features `x`. -/
abbrev a0 : FVec Ideal S100000x128 .f32 := m ((c : Thread nD τ).loc main_arg0)
/-- The edge list. -/
abbrev a1 : IVec S2x1000000 32 := m ((c : Thread nD τ).loc main_arg1)
/-- `W1`. -/
abbrev a2 : FVec Ideal S128x128 .f32 := m ((c : Thread nD τ).loc main_arg2)
/-- `b1`. -/
abbrev a3 : FVec Ideal S128 .f32 := m ((c : Thread nD τ).loc main_arg3)
/-- `W_mu`. -/
abbrev a4 : FVec Ideal S128x64 .f32 := m ((c : Thread nD τ).loc main_arg4)
/-- `b_mu`. -/
abbrev a5 : FVec Ideal S64 .f32 := m ((c : Thread nD τ).loc main_arg5)
/-- `W_ls`. -/
abbrev a6 : FVec Ideal S128x64 .f32 := m ((c : Thread nD τ).loc main_arg6)
/-- `b_ls`. -/
abbrev a7 : FVec Ideal S64 .f32 := m ((c : Thread nD τ).loc main_arg7)

/-- The reference's source list, target list and edge weights of the edge list. -/
abbrev srcL : IVec S1100000 32 := Cert.ReferenceIdeal.ReadP.val_main_v3 (F := Ideal) (a1 m c)
abbrev dstL : IVec S1100000 32 := Cert.ReferenceIdeal.ReadP.val_main_v6 (F := Ideal) (a1 m c)
abbrev wgt : FVec Ideal S1100000 .f32 := Cert.ReferenceIdeal.ReadP.val_main_v29 (F := Ideal) (a1 m c)

/-- The buffer named is written by no line of the list: it differs from every line's result buffer. -/
local macro "not_written" ops:ident : tactic => `(tactic| (
  refine List.forall_iff_forall_mem.mp ?_
  simp only [$ops:ident, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)))

/-! ## The first product region's entry: after the opening lines -/

/-- The opening lines write no buffer they do not name: a buffer outside their results is as launched. -/
theorem W3_keep (b : Ref sig .tc)
    (h0 : ∀ op ∈ (hostOps0 : List (HloOp τ sig (Elt Ideal))), Proc.devRef .tc b ∉ op.writes)
    (h1 : ∀ op ∈ (hostOps0_1 : List (HloOp τ sig (Elt Ideal))), Proc.devRef .tc b ∉ op.writes)
    (h2 : ∀ op ∈ (hostOps0_2 : List (HloOp τ sig (Elt Ideal))), Proc.devRef .tc b ∉ op.writes) :
    W3 m ρ c (Proc.devRef .tc b) = m ((c : Thread nD τ).loc b) :=
  (StableHlo.after_of_forall_not_mem _ _ h2).trans ((StableHlo.after_of_forall_not_mem _ _ h1).trans
    (StableHlo.after_of_forall_not_mem _ _ h0))

theorem K3_arg0 : W3 m ρ c (Proc.devRef .tc main_arg0) = a0 m c :=
  W3_keep m ρ c main_arg0 (by not_written hostOps0) (by not_written hostOps0_1) (by not_written hostOps0_2)
theorem K3_arg2 : W3 m ρ c (Proc.devRef .tc main_arg2) = a2 m c :=
  W3_keep m ρ c main_arg2 (by not_written hostOps0) (by not_written hostOps0_1) (by not_written hostOps0_2)
theorem K3_arg3 : W3 m ρ c (Proc.devRef .tc main_arg3) = a3 m c :=
  W3_keep m ρ c main_arg3 (by not_written hostOps0) (by not_written hostOps0_1) (by not_written hostOps0_2)
theorem K3_arg4 : W3 m ρ c (Proc.devRef .tc main_arg4) = a4 m c :=
  W3_keep m ρ c main_arg4 (by not_written hostOps0) (by not_written hostOps0_1) (by not_written hostOps0_2)
theorem K3_arg5 : W3 m ρ c (Proc.devRef .tc main_arg5) = a5 m c :=
  W3_keep m ρ c main_arg5 (by not_written hostOps0) (by not_written hostOps0_1) (by not_written hostOps0_2)
theorem K3_arg6 : W3 m ρ c (Proc.devRef .tc main_arg6) = a6 m c :=
  W3_keep m ρ c main_arg6 (by not_written hostOps0) (by not_written hostOps0_1) (by not_written hostOps0_2)
theorem K3_arg7 : W3 m ρ c (Proc.devRef .tc main_arg7) = a7 m c :=
  W3_keep m ρ c main_arg7 (by not_written hostOps0) (by not_written hostOps0_1) (by not_written hostOps0_2)

theorem K3_v3 : W3 m ρ c (Proc.devRef .tc main_v3) = srcL m c := opening_v3 (W0 m ρ c)
theorem K3_v6 : W3 m ρ c (Proc.devRef .tc main_v6) = dstL m c := opening_v6 (W0 m ρ c)
theorem K3_v29 : W3 m ρ c (Proc.devRef .tc main_v29) = wgt m c := opening_v29 (W0 m ρ c)

/-! ## After the first product region -/

/-- The region's result: `x · W1`. -/
theorem K4_v30 : W4 m ρ c (Proc.devRef .tc main_v30) = Cert.Spec.mm (a0 m c) (a2 m c) := by
  refine (W4_arr m ρ c 2).trans ((arr0 (V3 m ρ) c).trans ?_)
  show Cert.Spec.mm (W3 m ρ c (Proc.devRef .tc main_arg0)) (W3 m ρ c (Proc.devRef .tc main_arg2)) = _
  rw [K3_arg0, K3_arg2]

theorem K4_v3 : W4 m ρ c (Proc.devRef .tc main_v3) = srcL m c := (W4_of_ne m ρ c main_v3 (by decide)).trans (K3_v3 m ρ c)
theorem K4_v6 : W4 m ρ c (Proc.devRef .tc main_v6) = dstL m c := (W4_of_ne m ρ c main_v6 (by decide)).trans (K3_v6 m ρ c)
theorem K4_v29 : W4 m ρ c (Proc.devRef .tc main_v29) = wgt m c := (W4_of_ne m ρ c main_v29 (by decide)).trans (K3_v29 m ρ c)
theorem K4_arg3 : W4 m ρ c (Proc.devRef .tc main_arg3) = a3 m c := (W4_of_ne m ρ c main_arg3 (by decide)).trans (K3_arg3 m ρ c)
theorem K4_arg4 : W4 m ρ c (Proc.devRef .tc main_arg4) = a4 m c := (W4_of_ne m ρ c main_arg4 (by decide)).trans (K3_arg4 m ρ c)
theorem K4_arg5 : W4 m ρ c (Proc.devRef .tc main_arg5) = a5 m c := (W4_of_ne m ρ c main_arg5 (by decide)).trans (K3_arg5 m ρ c)
theorem K4_arg6 : W4 m ρ c (Proc.devRef .tc main_arg6) = a6 m c := (W4_of_ne m ρ c main_arg6 (by decide)).trans (K3_arg6 m ρ c)
theorem K4_arg7 : W4 m ρ c (Proc.devRef .tc main_arg7) = a7 m c := (W4_of_ne m ρ c main_arg7 (by decide)).trans (K3_arg7 m ρ c)

/-! ## The first bias region's entry: after the first step's lines -/

/-- The first aggregate: one step over `x · W1`. -/
abbrev agg1 : FVec Ideal S100000x128 .f32 := step (Cert.Spec.mm (a0 m c) (a2 m c)) (srcL m c) (dstL m c) (wgt m c)
/-- The first bias as a row. -/
abbrev row1 : FVec Ideal S1x128 .f32 := shapeCast S1x128 (a3 m c) shapeCasts_S128_S1x128

theorem K5_v43 : W5 m ρ c (Proc.devRef .tc main_v43) = agg1 m c := by
  refine (layer1_v43 (W4 m ρ c)).trans ?_
  rw [K4_v30, K4_v3, K4_v6, K4_v29]

theorem K5_v44 : W5 m ρ c (Proc.devRef .tc main_v44) = row1 m c := by
  refine (layer1_v44 (W4 m ρ c)).trans ?_
  rw [K4_arg3]

/-- The lines of the first step leave a buffer outside their results as the region left it. -/
theorem W5_keep (b : Ref sig .tc) (h : ∀ op ∈ (hostOps1 : List (HloOp τ sig (Elt Ideal))), Proc.devRef .tc b ∉ op.writes) :
    W5 m ρ c (Proc.devRef .tc b) = W4 m ρ c (Proc.devRef .tc b) := StableHlo.after_of_forall_not_mem _ _ h

/-! ## After the first bias region -/

/-- The hidden features: the first aggregate plus the bias, rectified. -/
abbrev hid : FVec Ideal S100000x128 .f32 := Cert.Spec.biasRelu (agg1 m c) (row1 m c)

theorem K6_v45 : W6 m ρ c (Proc.devRef .tc main_v45) = hid m c := by
  refine (W6_arr m ρ c 2).trans ((arr1 (V5 m ρ) c).trans ?_)
  show Cert.Spec.biasRelu (W5 m ρ c (Proc.devRef .tc main_v43)) (W5 m ρ c (Proc.devRef .tc main_v44)) = _
  rw [K5_v43, K5_v44]

theorem K6_v3 : W6 m ρ c (Proc.devRef .tc main_v3) = srcL m c :=
  (W6_of_ne m ρ c main_v3 (by decide)).trans ((W5_keep m ρ c main_v3 (by not_written hostOps1)).trans (K4_v3 m ρ c))
theorem K6_v6 : W6 m ρ c (Proc.devRef .tc main_v6) = dstL m c :=
  (W6_of_ne m ρ c main_v6 (by decide)).trans ((W5_keep m ρ c main_v6 (by not_written hostOps1)).trans (K4_v6 m ρ c))
theorem K6_v29 : W6 m ρ c (Proc.devRef .tc main_v29) = wgt m c :=
  (W6_of_ne m ρ c main_v29 (by decide)).trans ((W5_keep m ρ c main_v29 (by not_written hostOps1)).trans (K4_v29 m ρ c))
theorem K6_arg4 : W6 m ρ c (Proc.devRef .tc main_arg4) = a4 m c :=
  (W6_of_ne m ρ c main_arg4 (by decide)).trans ((W5_keep m ρ c main_arg4 (by not_written hostOps1)).trans (K4_arg4 m ρ c))
theorem K6_arg5 : W6 m ρ c (Proc.devRef .tc main_arg5) = a5 m c :=
  (W6_of_ne m ρ c main_arg5 (by decide)).trans ((W5_keep m ρ c main_arg5 (by not_written hostOps1)).trans (K4_arg5 m ρ c))
theorem K6_arg6 : W6 m ρ c (Proc.devRef .tc main_arg6) = a6 m c :=
  (W6_of_ne m ρ c main_arg6 (by decide)).trans ((W5_keep m ρ c main_arg6 (by not_written hostOps1)).trans (K4_arg6 m ρ c))
theorem K6_arg7 : W6 m ρ c (Proc.devRef .tc main_arg7) = a7 m c :=
  (W6_of_ne m ρ c main_arg7 (by decide)).trans ((W5_keep m ρ c main_arg7 (by not_written hostOps1)).trans (K4_arg7 m ρ c))

/-! ## The second product region's entry: the heads side by side -/

/-- `[W_mu | W_ls]`. -/
abbrev wcat : FVec Ideal S128x128 .f32 :=
  concatenate S128x128 1 [⟨S128x64, a4 m c⟩, ⟨S128x64, a6 m c⟩] concatenates_S128x64_S128x64_S128x128_d1
/-- `b_mu` followed by `b_ls`. -/
abbrev bcat : FVec Ideal S128 .f32 :=
  concatenate S128 0 [⟨S64, a5 m c⟩, ⟨S64, a7 m c⟩] concatenates_S64_S64_S128_d0

theorem K7_v46 : W7 m ρ c (Proc.devRef .tc main_v46) = wcat m c := by
  refine (heads_v46 (W6 m ρ c)).trans ?_
  rw [K6_arg4, K6_arg6]

theorem K7_v47 : W7 m ρ c (Proc.devRef .tc main_v47) = bcat m c := by
  refine (heads_v47 (W6 m ρ c)).trans ?_
  rw [K6_arg5, K6_arg7]

/-- The two side-by-side lines leave a buffer outside their results as the region left it. -/
theorem W7_keep (b : Ref sig .tc) (h : ∀ op ∈ (hostOps2 : List (HloOp τ sig (Elt Ideal))), Proc.devRef .tc b ∉ op.writes) :
    W7 m ρ c (Proc.devRef .tc b) = W6 m ρ c (Proc.devRef .tc b) := StableHlo.after_of_forall_not_mem _ _ h

theorem K7_v45 : W7 m ρ c (Proc.devRef .tc main_v45) = hid m c := (W7_keep m ρ c main_v45 (by not_written hostOps2)).trans (K6_v45 m ρ c)
theorem K7_v3 : W7 m ρ c (Proc.devRef .tc main_v3) = srcL m c := (W7_keep m ρ c main_v3 (by not_written hostOps2)).trans (K6_v3 m ρ c)
theorem K7_v6 : W7 m ρ c (Proc.devRef .tc main_v6) = dstL m c := (W7_keep m ρ c main_v6 (by not_written hostOps2)).trans (K6_v6 m ρ c)
theorem K7_v29 : W7 m ρ c (Proc.devRef .tc main_v29) = wgt m c := (W7_keep m ρ c main_v29 (by not_written hostOps2)).trans (K6_v29 m ρ c)

/-! ## After the second product region -/

/-- The region's result: the hidden features times the side-by-side heads. -/
theorem K8_v48 : W8 m ρ c (Proc.devRef .tc main_v48) = Cert.Spec.mm (hid m c) (wcat m c) := by
  refine (W8_arr m ρ c 2).trans ((arr2 (V7 m ρ) c).trans ?_)
  show Cert.Spec.mm (W7 m ρ c (Proc.devRef .tc main_v45)) (W7 m ρ c (Proc.devRef .tc main_v46)) = _
  rw [K7_v45, K7_v46]

theorem K8_v3 : W8 m ρ c (Proc.devRef .tc main_v3) = srcL m c := (W8_of_ne m ρ c main_v3 (by decide)).trans (K7_v3 m ρ c)
theorem K8_v6 : W8 m ρ c (Proc.devRef .tc main_v6) = dstL m c := (W8_of_ne m ρ c main_v6 (by decide)).trans (K7_v6 m ρ c)
theorem K8_v29 : W8 m ρ c (Proc.devRef .tc main_v29) = wgt m c := (W8_of_ne m ρ c main_v29 (by decide)).trans (K7_v29 m ρ c)
theorem K8_v47 : W8 m ρ c (Proc.devRef .tc main_v47) = bcat m c := (W8_of_ne m ρ c main_v47 (by decide)).trans (K7_v47 m ρ c)

/-! ## The second bias region's entry and exit, and the two heads -/

/-- The second aggregate: one step over the fused product. -/
abbrev agg2 : FVec Ideal S100000x128 .f32 := step (Cert.Spec.mm (hid m c) (wcat m c)) (srcL m c) (dstL m c) (wgt m c)
/-- The fused bias as a row. -/
abbrev row2 : FVec Ideal S1x128 .f32 := shapeCast S1x128 (bcat m c) shapeCasts_S128_S1x128

theorem K9_v61 : W9 m ρ c (Proc.devRef .tc main_v61) = agg2 m c := by
  refine (layer2_v61 (W8 m ρ c)).trans ?_
  rw [K8_v48, K8_v3, K8_v6, K8_v29]

theorem K9_v62 : W9 m ρ c (Proc.devRef .tc main_v62) = row2 m c := by
  refine (layer2_v62 (W8 m ρ c)).trans ?_
  rw [K8_v47]

/-- The fused result: the second aggregate plus the fused bias. -/
abbrev fused : FVec Ideal S100000x128 .f32 := Cert.Spec.biasAdd (agg2 m c) (row2 m c)

theorem K10_v63 : W10 m ρ c (Proc.devRef .tc main_v63) = fused m c := by
  refine (W10_arr m ρ c 2).trans ((arr3 (V9 m ρ) c).trans ?_)
  show Cert.Spec.biasAdd (W9 m ρ c (Proc.devRef .tc main_v61)) (W9 m ρ c (Proc.devRef .tc main_v62)) = _
  rw [K9_v61, K9_v62]

/-- THE FIRST RESULT: the fused result's first 64 columns. -/
theorem K11_v64 : W11 m ρ c (Proc.devRef .tc main_v64)
    = extractStridedSlice S100000x64 ![0, 0] (fused m c) slices_S100000x128_S100000x64_0_0 := by
  refine (split_v64 (W10 m ρ c)).trans ?_
  rw [K10_v63]

/-- THE SECOND RESULT: the fused result's last 64 columns. -/
theorem K11_v65 : W11 m ρ c (Proc.devRef .tc main_v65)
    = extractStridedSlice S100000x64 ![0, 64] (fused m c) slices_S100000x128_S100000x64_0_64 := by
  refine (split_v65 (W10 m ρ c)).trans ?_
  rw [K10_v63]

end Cert.KernelIdeal.Trace

end
-- ==== Proof.LibScatterGather2.lean ====
/-
  The accumulating scatter and the gather of a table of rows by a column of index words, read at an index.

  Both operations here take an operand of `N` rows and `C` columns and an `M × 1` column of index words, one word per
  update (or result) row: row `e` names row `idx[e, 0]` of the operand, the word read as a SIGNED integer, and the
  columns go straight across.
    • The scatter adds update row `e` into the operand row its word names, column by column, and drops it when the
      word names no row; so element `(u, j)` ends as its old value plus the sum, over the update rows whose word read
      signed is `u`, of their column `j`.
    • The gather reads, at `(e, j)`, column `j` of the operand row `e`'s word names, the word clamped into
      `[0, N − 1]`; when the word is already below `N` (and `N` is at most half the word range, so that the signed
      reading is the unsigned one) that is the row at the word itself.
  Nothing here depends on the sizes: every step is about the two axes, never about the `N`, `M` or `C` positions.
-/
import Idealize.ShloMosaic.PureOps.Ideal
import Idealize.ShloMosaic.PureOps.ShapeOps
import Idealize.ShloMosaic.PureOps.Contract
import Idealize.ShloMosaic.Lib.ValueIdx

noncomputable section

namespace Cert.LibScatterGather2

open Idealize.ShloMosaic Idealize.ShloMosaic.ValueIdx

/-! ## The scatter -/

section Scatter

variable {N C M w : Nat}

/-- Where update index `jj` starts and how far into its window it sits, axis by axis: on the row axis the start is
    the index word of `jj`'s row, read signed, and the window coordinate is zero (the axis is inserted); on the column
    axis the start is zero (no word names it) and the window coordinate is `jj`'s column. -/
theorem start_window (d : ScatterDims ⟨2, ![N, C]⟩ ⟨2, ![M, 1]⟩ ⟨2, ![M, C]⟩)
    (huw : d.updateWindowDims = [1]) (hiw : d.insertedWindowDims = [0]) (hsd : d.scatterDimsToOperandDims = [0])
    (hivd : d.indexVectorDim = 1)
    (idx : IVec ⟨2, ![M, 1]⟩ w) (jj : (⟨2, ![M, C]⟩ : Shape).Idx) :
    d.start jj idx 0 = (idx (ix2 (n0 := M) (n1 := 1) (jj 0) 0)).toInt ∧ d.start jj idx 1 = 0
      ∧ d.window jj 0 = 0 ∧ d.window jj 1 = (jj 1).val := by
  cases d with
  | mk uw iw sd iv wf =>
    obtain rfl : uw = [1] := huw
    obtain rfl : iw = [0] := hiw
    obtain rfl : sd = [0] := hsd
    obtain rfl : iv = 1 := hivd
    refine ⟨?_, ?_, ?_, ?_⟩
    · unfold ScatterDims.start
      rw [dif_pos (List.mem_singleton.mpr rfl)]
      refine congrArg (fun k => (idx k).toInt) ?_
      funext b
      match b with
      | ⟨0, _⟩ => exact Fin.ext rfl
      | ⟨1, _⟩ => exact Fin.ext rfl
    · unfold ScatterDims.start
      rw [dif_neg (by decide : (1 : Fin 2) ∉ [0])]
    · unfold ScatterDims.window
      exact dif_neg (by decide : (0 : Fin 2) ∉ (List.finRange 2).filter (· ∉ [0]))
    · unfold ScatterDims.window
      refine (dif_pos (by decide : (1 : Fin 2) ∈ (List.finRange 2).filter (· ∉ [0]))).trans ?_
      rfl

/-- Update index `jj` lands on element `i` exactly when its row's index word, read signed, is `i`'s row and its
    column is `i`'s column. -/
theorem resultIdx?_iff (d : ScatterDims ⟨2, ![N, C]⟩ ⟨2, ![M, 1]⟩ ⟨2, ![M, C]⟩)
    (huw : d.updateWindowDims = [1]) (hiw : d.insertedWindowDims = [0]) (hsd : d.scatterDimsToOperandDims = [0])
    (hivd : d.indexVectorDim = 1)
    (idx : IVec ⟨2, ![M, 1]⟩ w) (jj : (⟨2, ![M, C]⟩ : Shape).Idx) (i : (⟨2, ![N, C]⟩ : Shape).Idx) :
    d.resultIdx? jj idx = some i
      ↔ (idx (ix2 (n0 := M) (n1 := 1) (jj 0) 0)).toInt = ((i 0).val : ℤ) ∧ (jj 1).val = (i 1).val := by
  obtain ⟨hs0, hs1, hw0, hw1⟩ := start_window d huw hiw hsd hivd idx jj
  have hi0 : (i 0).val < N := (i 0).isLt
  have hi1 : (i 1).val < C := (i 1).isLt
  have hj1 : (jj 1).val < C := (jj 1).isLt
  unfold ScatterDims.resultIdx?
  constructor
  · intro h
    split at h
    · rename_i hc
      have hf := Option.some.inj h
      have h0 : (d.start jj idx 0 + (d.window jj 0 : ℤ)).toNat = (i 0).val := congrArg (fun f => (f 0).val) hf
      have h1 : (d.start jj idx 1 + (d.window jj 1 : ℤ)).toNat = (i 1).val := congrArg (fun f => (f 1).val) hf
      have hc0 := (hc 0).1
      rw [hs0, hw0] at hc0 h0
      rw [hs1, hw1] at h1
      constructor
      · omega
      · omega
    · exact absurd h (by simp)
  · rintro ⟨h, h'⟩
    have hc : ∀ a : Fin 2, 0 ≤ d.start jj idx a + (d.window jj a : ℤ)
        ∧ d.start jj idx a + (d.window jj a : ℤ) < ((⟨2, ![N, C]⟩ : Shape).size a : ℤ) := by
      intro a
      match a with
      | ⟨0, _⟩ =>
        show 0 ≤ d.start jj idx 0 + (d.window jj 0 : ℤ) ∧ d.start jj idx 0 + (d.window jj 0 : ℤ) < (N : ℤ)
        rw [hs0, hw0, h]
        constructor <;> omega
      | ⟨1, _⟩ =>
        show 0 ≤ d.start jj idx 1 + (d.window jj 1 : ℤ) ∧ d.start jj idx 1 + (d.window jj 1 : ℤ) < (C : ℤ)
        rw [hs1, hw1]
        constructor <;> omega
    rw [dif_pos hc]
    refine congrArg some ?_
    funext a
    match a with
    | ⟨0, _⟩ =>
      apply Fin.ext
      show (d.start jj idx 0 + (d.window jj 0 : ℤ)).toNat = (i 0).val
      rw [hs0, hw0, h]; simp
    | ⟨1, _⟩ =>
      apply Fin.ext
      show (d.start jj idx 1 + (d.window jj 1 : ℤ)).toNat = (i 1).val
      rw [hs1, hw1]; simpa using h'

/-- The accumulating scatter at element `(u, j)`: the old value plus column `j` of the update rows whose word,
    read signed, is `u`. -/
theorem scatterAdd_apply {φ : FTy} (d : ScatterDims ⟨2, ![N, C]⟩ ⟨2, ![M, 1]⟩ ⟨2, ![M, C]⟩)
    (huw : d.updateWindowDims = [1]) (hiw : d.insertedWindowDims = [0]) (hsd : d.scatterDimsToOperandDims = [0])
    (hivd : d.indexVectorDim = 1)
    (x : FVec Ideal ⟨2, ![N, C]⟩ φ) (idx : IVec ⟨2, ![M, 1]⟩ w) (upd : FVec Ideal ⟨2, ![M, C]⟩ φ)
    (u : Fin N) (j : Fin C) :
    Host.scatterAdd (F := Ideal) d x idx upd (ix2 u j)
      = x (ix2 u j) + ∑ e ∈ Finset.univ.filter (fun e : Fin M => (idx (ix2 e (0 : Fin 1))).toInt = (u.val : ℤ)),
          upd (ix2 e j) := by
  show Ideal.hostScatterAdd d x idx upd (ix2 u j) = _
  unfold Ideal.hostScatterAdd
  refine congrArg (x (ix2 u j) + ·) ?_
  symm
  refine Finset.sum_bij (fun e _ => ix2 e j) ?_ ?_ ?_ (fun _ _ => rfl)
  · intro e he
    rw [Finset.mem_filter] at he ⊢
    exact ⟨Finset.mem_univ _, (resultIdx?_iff d huw hiw hsd hivd idx (ix2 e j) (ix2 u j)).mpr ⟨he.2, rfl⟩⟩
  · intro e _ e' _ h
    exact congrFun h 0
  · intro jj hjj
    rw [Finset.mem_filter] at hjj
    obtain ⟨h, h'⟩ := (resultIdx?_iff d huw hiw hsd hivd idx jj (ix2 u j)).mp hjj.2
    refine ⟨jj 0, Finset.mem_filter.mpr ⟨Finset.mem_univ _, h⟩, ?_⟩
    rw [eq_ix2 jj]
    refine congrArg (ix2 (jj 0)) (Fin.ext ?_)
    exact h'.symm

end Scatter

/-! ## The gather -/

section Gather

variable {α : Type} {N C M w : Nat}

/-- The gather at `(e, j)`, whatever the word: column `j` of the row at the word read signed and clamped. -/
theorem gather_apply_clamp (d : GatherDims ⟨2, ![N, C]⟩ ⟨2, ![M, 1]⟩ ⟨2, ![M, C]⟩)
    (hoff : d.offsetDims = [1]) (hcoll : d.collapsedSliceDims = [0]) (hob : d.operandBatchingDims = [])
    (hsim : d.startIndexMap = [0]) (hivd : d.indexVectorDim = 1)
    (x : (⟨2, ![N, C]⟩ : Shape).Idx → α) (idx : IVec ⟨2, ![M, 1]⟩ w) (e : Fin M) (j : Fin C) (hN : 0 < N) :
    Host.gather d x idx (ix2 e j)
      = x (ix2 ⟨min (idx (ix2 e (0 : Fin 1))).toInt.toNat (N - 1), by omega⟩ j) := by
  have hsl : d.sliceSizes 0 = 1 := d.slice_collapsed 0 (by rw [hcoll]; exact List.mem_singleton.mpr rfl)
  unfold Host.gather
  refine congrArg x ?_
  cases d with
  | mk od cd ob sb sm iv ss wf =>
    obtain rfl : od = [1] := hoff
    obtain rfl : cd = [0] := hcoll
    obtain rfl : ob = [] := hob
    obtain rfl : sm = [0] := hsim
    obtain rfl : iv = 1 := hivd
    replace hsl : ss 0 = 1 := hsl
    funext a
    match a with
    | ⟨0, _⟩ =>
      apply Fin.ext
      show GatherDims.start _ (ix2 e j) idx 0 + GatherDims.batchCoord _ (ix2 e j) 0 + GatherDims.offCoord _ (ix2 e j) 0
        = min (idx (ix2 e (0 : Fin 1))).toInt.toNat (N - 1)
      rw [GatherDims.batchCoord_eq_zero _ _ _ List.not_mem_nil,
        GatherDims.offCoord_eq_zero _ _ _ (by decide : (0 : Fin 2) ∉ (List.finRange 2).filter (· ∉ [0] ++ []))]
      simp only [Nat.add_zero]
      unfold GatherDims.start
      rw [dif_pos (List.mem_singleton.mpr rfl)]
      show min (idx _).toInt.toNat (N - ss 0) = _
      rw [hsl]
      refine congrArg (fun k => min (idx k).toInt.toNat (N - 1)) ?_
      funext b
      match b with
      | ⟨0, _⟩ => exact Fin.ext rfl
      | ⟨1, _⟩ => exact Fin.ext rfl
    | ⟨1, _⟩ =>
      apply Fin.ext
      show GatherDims.start _ (ix2 e j) idx 1 + GatherDims.batchCoord _ (ix2 e j) 1 + GatherDims.offCoord _ (ix2 e j) 1
        = j.val
      rw [GatherDims.batchCoord_eq_zero _ _ _ List.not_mem_nil]
      simp only [Nat.add_zero]
      unfold GatherDims.start
      rw [dif_neg (by decide : (1 : Fin 2) ∉ [0]), Nat.zero_add]
      unfold GatherDims.offCoord
      refine (dif_pos (by decide : (1 : Fin 2) ∈ (List.finRange 2).filter (· ∉ [0] ++ []))).trans ?_
      rfl

/-- The gather at `(e, j)` when the word is a row's position: column `j` of that row. -/
theorem gather_apply (d : GatherDims ⟨2, ![N, C]⟩ ⟨2, ![M, 1]⟩ ⟨2, ![M, C]⟩)
    (hoff : d.offsetDims = [1]) (hcoll : d.collapsedSliceDims = [0]) (hob : d.operandBatchingDims = [])
    (hsim : d.startIndexMap = [0]) (hivd : d.indexVectorDim = 1)
    (x : (⟨2, ![N, C]⟩ : Shape).Idx → α) (idx : IVec ⟨2, ![M, 1]⟩ w) (e : Fin M) (j : Fin C)
    (hN : 2 * N ≤ 2 ^ w) (h : (idx (ix2 e (0 : Fin 1))).toNat < N) :
    Host.gather d x idx (ix2 e j) = x (ix2 ⟨(idx (ix2 e (0 : Fin 1))).toNat, h⟩ j) := by
  have hN0 : 0 < N := by omega
  rw [gather_apply_clamp d hoff hcoll hob hsim hivd x idx e j hN0]
  refine congrArg x (congrArg (fun r => ix2 r j) (Fin.ext ?_))
  show min (idx (ix2 e (0 : Fin 1))).toInt.toNat (N - 1) = (idx (ix2 e (0 : Fin 1))).toNat
  rw [BitVec.toInt_eq_toNat_of_lt (by omega), Int.toNat_natCast]
  omega

end Gather

end Cert.LibScatterGather2

end
-- ==== Proof.Layer.lean ====
/-
  One message-passing step read at an index, and the fused second layer against the two separate heads.

  A step takes node features `h` (`N` rows, `C` columns), a column of source words, a column of target words and an
  edge weight per (edge, column). It gathers the row each edge's source word names (the word read signed and clamped
  into the rows), scales it by the edge's weight, and adds it into the row the edge's target word names (dropped when
  the word names no row). So entry `(u, j)` of the result is the start value plus the sum, over the edges whose target
  word is `u`, of `h (source row, j) · weight (edge, j)`: a sum in which column `j` only ever meets column `j`.
  Therefore a step applied to features whose columns are two blocks side by side is, block by block, the step applied
  to each block: the fused head product `h · [W_a | W_b]` has the columns of `h · W_a` then those of `h · W_b`, and
  the step keeps them apart.
-/
import Idealize.ShloMosaic.PureOps.Ideal
import Idealize.ShloMosaic.Lib.ValueIdx
import proofs.«123345_j7421703487979_1_alg».proof.Proof.LibScatterGather2
import proofs.«123345_j7421703487979_1_alg».proof.Proof.Spec

noncomputable section

namespace Cert.Layer

open Idealize.ShloMosaic Idealize.ShloMosaic.ValueIdx Cert.Spec
open scoped BigOperators

variable {N C M : Nat}

/-- The row an edge's source word names: the word read signed, clamped into `[0, N − 1]`. -/
def srcRow (hN : 0 < N) (src : IVec ⟨2, ![M, 1]⟩ 32) (e : Fin M) : Fin N :=
  ⟨min (src (ix2 e (0 : Fin 1))).toInt.toNat (N - 1), by omega⟩

/-- One step at `(u, j)`: the start value plus, over the edges whose target word is `u`, the gathered entry times
    the edge's weight. -/
theorem step_apply (g : GatherDims ⟨2, ![N, C]⟩ ⟨2, ![M, 1]⟩ ⟨2, ![M, C]⟩)
    (hoff : g.offsetDims = [1]) (hcoll : g.collapsedSliceDims = [0]) (hob : g.operandBatchingDims = [])
    (hsim : g.startIndexMap = [0]) (hgiv : g.indexVectorDim = 1)
    (s : ScatterDims ⟨2, ![N, C]⟩ ⟨2, ![M, 1]⟩ ⟨2, ![M, C]⟩)
    (huw : s.updateWindowDims = [1]) (hiw : s.insertedWindowDims = [0]) (hsd : s.scatterDimsToOperandDims = [0])
    (hsiv : s.indexVectorDim = 1)
    (z h : FVec Ideal ⟨2, ![N, C]⟩ .f32) (src dst : IVec ⟨2, ![M, 1]⟩ 32) (nu : FVec Ideal ⟨2, ![M, C]⟩ .f32)
    (hN : 0 < N) (u : Fin N) (j : Fin C) :
    Host.scatterAdd (F := Ideal) s z dst (mulf (Host.gather g h src) nu) (ix2 u j)
      = z (ix2 u j) + ∑ e ∈ Finset.univ.filter (fun e : Fin M => (dst (ix2 e (0 : Fin 1))).toInt = (u.val : ℤ)),
          h (ix2 (srcRow hN src e) j) * nu (ix2 e j) := by
  rw [Cert.LibScatterGather2.scatterAdd_apply s huw hiw hsd hsiv]
  refine congrArg (z (ix2 u j) + ·) (Finset.sum_congr rfl fun e _ => ?_)
  rw [mulf_apply, Cert.LibScatterGather2.gather_apply_clamp g hoff hcoll hob hsim hgiv h src e j hN]
  rfl

variable {K B B' : Nat}

/-- The fused step's first `B` columns are the step over the first head: with the weight matrix `Wc` holding `Wa` in its
    first `B` columns, the start values equal column by column and the edge weights the same function of the edge. -/
theorem fused_lo
    (g : GatherDims ⟨2, ![N, B + B']⟩ ⟨2, ![M, 1]⟩ ⟨2, ![M, B + B']⟩)
    (hoff : g.offsetDims = [1]) (hcoll : g.collapsedSliceDims = [0]) (hob : g.operandBatchingDims = [])
    (hsim : g.startIndexMap = [0]) (hgiv : g.indexVectorDim = 1)
    (s : ScatterDims ⟨2, ![N, B + B']⟩ ⟨2, ![M, 1]⟩ ⟨2, ![M, B + B']⟩)
    (huw : s.updateWindowDims = [1]) (hiw : s.insertedWindowDims = [0]) (hsd : s.scatterDimsToOperandDims = [0])
    (hsiv : s.indexVectorDim = 1)
    (g' : GatherDims ⟨2, ![N, B]⟩ ⟨2, ![M, 1]⟩ ⟨2, ![M, B]⟩)
    (hoff' : g'.offsetDims = [1]) (hcoll' : g'.collapsedSliceDims = [0]) (hob' : g'.operandBatchingDims = [])
    (hsim' : g'.startIndexMap = [0]) (hgiv' : g'.indexVectorDim = 1)
    (s' : ScatterDims ⟨2, ![N, B]⟩ ⟨2, ![M, 1]⟩ ⟨2, ![M, B]⟩)
    (huw' : s'.updateWindowDims = [1]) (hiw' : s'.insertedWindowDims = [0]) (hsd' : s'.scatterDimsToOperandDims = [0])
    (hsiv' : s'.indexVectorDim = 1)
    (H : Arr N K) (Wc : Arr K (B + B')) (Wa : Arr K B)
    (hW : ∀ (k : Fin K) (j : Fin B), Wc (ix2 k (Fin.castAdd B' j)) = Wa (ix2 k j))
    (z : FVec Ideal ⟨2, ![N, B + B']⟩ .f32) (z' : FVec Ideal ⟨2, ![N, B]⟩ .f32)
    (hz : ∀ (u : Fin N) (j : Fin B), z (ix2 u (Fin.castAdd B' j)) = z' (ix2 u j))
    (src dst : IVec ⟨2, ![M, 1]⟩ 32)
    (nu : FVec Ideal ⟨2, ![M, B + B']⟩ .f32) (nu' : FVec Ideal ⟨2, ![M, B]⟩ .f32)
    (hnu : ∀ (e : Fin M) (j : Fin B), nu (ix2 e (Fin.castAdd B' j)) = nu' (ix2 e j))
    (hN : 0 < N) :
    colsLo (B := B) (B' := B') (Host.scatterAdd (F := Ideal) s z dst (mulf (Host.gather g (mm H Wc) src) nu))
      = Host.scatterAdd (F := Ideal) s' z' dst (mulf (Host.gather g' (mm H Wa) src) nu') := by
  funext i
  obtain ⟨u, j, rfl⟩ : ∃ (u : Fin N) (j : Fin B), i = ix2 u j := ⟨i 0, i 1, eq_ix2 i⟩
  show Host.scatterAdd (F := Ideal) s z dst (mulf (Host.gather g (mm H Wc) src) nu) (ix2 u (Fin.castAdd B' j)) = _
  rw [step_apply g hoff hcoll hob hsim hgiv s huw hiw hsd hsiv z (mm H Wc) src dst nu hN u (Fin.castAdd B' j),
    step_apply g' hoff' hcoll' hob' hsim' hgiv' s' huw' hiw' hsd' hsiv' z' (mm H Wa) src dst nu' hN u j, hz]
  refine congrArg (z' (ix2 u j) + ·) (Finset.sum_congr rfl fun e _ => ?_)
  rw [hnu, mm_apply, mm_apply]
  refine congrArg (· * nu' (ix2 e j)) (Finset.sum_congr rfl fun k _ => ?_)
  rw [hW]

/-- The fused step's last `B'` columns are the step over the second head. -/
theorem fused_hi
    (g : GatherDims ⟨2, ![N, B + B']⟩ ⟨2, ![M, 1]⟩ ⟨2, ![M, B + B']⟩)
    (hoff : g.offsetDims = [1]) (hcoll : g.collapsedSliceDims = [0]) (hob : g.operandBatchingDims = [])
    (hsim : g.startIndexMap = [0]) (hgiv : g.indexVectorDim = 1)
    (s : ScatterDims ⟨2, ![N, B + B']⟩ ⟨2, ![M, 1]⟩ ⟨2, ![M, B + B']⟩)
    (huw : s.updateWindowDims = [1]) (hiw : s.insertedWindowDims = [0]) (hsd : s.scatterDimsToOperandDims = [0])
    (hsiv : s.indexVectorDim = 1)
    (g' : GatherDims ⟨2, ![N, B']⟩ ⟨2, ![M, 1]⟩ ⟨2, ![M, B']⟩)
    (hoff' : g'.offsetDims = [1]) (hcoll' : g'.collapsedSliceDims = [0]) (hob' : g'.operandBatchingDims = [])
    (hsim' : g'.startIndexMap = [0]) (hgiv' : g'.indexVectorDim = 1)
    (s' : ScatterDims ⟨2, ![N, B']⟩ ⟨2, ![M, 1]⟩ ⟨2, ![M, B']⟩)
    (huw' : s'.updateWindowDims = [1]) (hiw' : s'.insertedWindowDims = [0]) (hsd' : s'.scatterDimsToOperandDims = [0])
    (hsiv' : s'.indexVectorDim = 1)
    (H : Arr N K) (Wc : Arr K (B + B')) (Wb : Arr K B')
    (hW : ∀ (k : Fin K) (j : Fin B'), Wc (ix2 k (Fin.natAdd B j)) = Wb (ix2 k j))
    (z : FVec Ideal ⟨2, ![N, B + B']⟩ .f32) (z' : FVec Ideal ⟨2, ![N, B']⟩ .f32)
    (hz : ∀ (u : Fin N) (j : Fin B'), z (ix2 u (Fin.natAdd B j)) = z' (ix2 u j))
    (src dst : IVec ⟨2, ![M, 1]⟩ 32)
    (nu : FVec Ideal ⟨2, ![M, B + B']⟩ .f32) (nu' : FVec Ideal ⟨2, ![M, B']⟩ .f32)
    (hnu : ∀ (e : Fin M) (j : Fin B'), nu (ix2 e (Fin.natAdd B j)) = nu' (ix2 e j))
    (hN : 0 < N) :
    colsHi (B := B) (B' := B') (Host.scatterAdd (F := Ideal) s z dst (mulf (Host.gather g (mm H Wc) src) nu))
      = Host.scatterAdd (F := Ideal) s' z' dst (mulf (Host.gather g' (mm H Wb) src) nu') := by
  funext i
  obtain ⟨u, j, rfl⟩ : ∃ (u : Fin N) (j : Fin B'), i = ix2 u j := ⟨i 0, i 1, eq_ix2 i⟩
  show Host.scatterAdd (F := Ideal) s z dst (mulf (Host.gather g (mm H Wc) src) nu) (ix2 u (Fin.natAdd B j)) = _
  rw [step_apply g hoff hcoll hob hsim hgiv s huw hiw hsd hsiv z (mm H Wc) src dst nu hN u (Fin.natAdd B j),
    step_apply g' hoff' hcoll' hob' hsim' hgiv' s' huw' hiw' hsd' hsiv' z' (mm H Wb) src dst nu' hN u j, hz]
  refine congrArg (z' (ix2 u j) + ·) (Finset.sum_congr rfl fun e _ => ?_)
  rw [hnu, mm_apply, mm_apply]
  refine congrArg (· * nu' (ix2 e j)) (Finset.sum_congr rfl fun k _ => ?_)
  rw [hW]

end Cert.Layer

end
-- ==== Proof.Join.lean ====
/-
  The idealized kernel's two results are the reference's, as whole arrays.

  Layer one. The kernel's block-by-block product is the plain product `x · W1`, which is the reference's; the step lines
  after it are the reference's own; the kernel's bias region adds the bias row and rectifies entry by entry, as the
  reference does on the whole array: the hidden features agree.
  Layer two. The kernel multiplies the hidden features by `[W_mu | W_ls]`, runs ONE step over the 128 columns, adds
  `[b_mu | b_ls]` and cuts the columns in two. A product's column `j` uses only the weight matrix's column `j`, and a
  step never mixes columns (each entry is a sum, over the edges arriving at its row, of the same column of the gathered
  rows times the edge's weight), so the first 64 columns are the step over `hidden · W_mu` plus `b_mu` and the last 64
  the step over `hidden · W_ls` plus `b_ls`: the reference's two results, term for term. No law of arithmetic beyond
  equality of the summands is used, so nothing is asked of the inputs.
-/
import proofs.«123345_j7421703487979_1_alg».proof.Proof.KTrace
import proofs.«123345_j7421703487979_1_alg».proof.Proof.Layer
import Idealize.ShloMosaic.Lib.Pipeline.Value
import Idealize.ShloMosaic.Lib.ValueIdx
import Idealize.ShloMosaic.PureOps.Ideal.Laws

set_option maxRecDepth 16384

noncomputable section

namespace Cert.KernelIdeal.Join

open Cert.KernelIdeal Cert.KernelIdeal.Gen Cert.KernelIdeal.HostValue Cert.KernelIdeal.Trace
open Idealize.ShloMosaic Idealize.ShloMosaic.TcCoe Idealize.ShloMosaic.ValueIdx Idealize.SL.Sem
open scoped BigOperators

/-! ## Small readings -/

/-- A vector of `n` entries cast to a `1 × n` row reads, at `(0, q)`, the vector at `q`. -/
theorem rowCast_apply {n : Nat} (x : (⟨1, ![n]⟩ : Shape).Idx → EReal)
    (h : (⟨1, ![n]⟩ : Shape).ShapeCasts ⟨2, ![1, n]⟩) (q : Fin n) :
    shapeCast ⟨2, ![1, n]⟩ x h (ix2 (0 : Fin 1) q) = x (ix1 q) := by
  refine shapeCast_apply x h (ix2 (0 : Fin 1) q) (ix1 q) ?_
  rw [Shape.rowMajor_val_one, Shape.rowMajor_val_two]
  show q.val = (0 : Fin 1).val * n + q.val
  simp

/-- The zero array every step starts from reads zero everywhere. -/
theorem zeros_apply {t : Shape} (h : (⟨0, ![]⟩ : Shape).BroadcastsInDim t (![] : Fin 0 → Fin t.rank)) (j : t.Idx) :
    broadcastInDim t (![] : Fin 0 → Fin t.rank) h (constant (F := Ideal) ⟨0, ![]⟩ .f32 0x00000000#32) j = (0 : EReal) := by
  rw [Cert.LibBroadcastInDim.scalar_apply _ h j ix0, constant_apply, Ideal.ofBits_zero_f32]

/-- An edge weight spread over `C` columns reads the edge's weight in every column. -/
theorem weight_apply {M C : Nat} (v : (⟨1, ![M]⟩ : Shape).Idx → EReal)
    (h1 : (⟨1, ![M]⟩ : Shape).BroadcastsInDim ⟨2, ![M, 1]⟩ (![0] : Fin 1 → Fin 2))
    (h2 : (⟨2, ![M, 1]⟩ : Shape).BroadcastsInDim ⟨2, ![M, C]⟩ (![0, 1] : Fin 2 → Fin 2)) (e : Fin M) (j : Fin C) :
    broadcastInDim ⟨2, ![M, C]⟩ (![0, 1] : Fin 2 → Fin 2) h2 (broadcastInDim ⟨2, ![M, 1]⟩ (![0] : Fin 1 → Fin 2) h1 v) (ix2 e j)
      = v (ix1 e) := by
  rw [Cert.LibBroadcastInDim.col_mat_apply, Cert.LibBroadcastInDim.vec_col_apply]

/-- A bias vector laid along the columns of every row reads, at `(p, q)`, the bias at `q`. -/
theorem biasRows_apply {A B : Nat} (b : (⟨1, ![B]⟩ : Shape).Idx → EReal)
    (h1 : (⟨1, ![B]⟩ : Shape).BroadcastsInDim ⟨2, ![1, B]⟩ (![1] : Fin 1 → Fin 2))
    (h2 : (⟨2, ![1, B]⟩ : Shape).BroadcastsInDim ⟨2, ![A, B]⟩ (![0, 1] : Fin 2 → Fin 2)) (p : Fin A) (q : Fin B) :
    broadcastInDim ⟨2, ![A, B]⟩ (![0, 1] : Fin 2 → Fin 2) h2 (broadcastInDim ⟨2, ![1, B]⟩ (![1] : Fin 1 → Fin 2) h1 b) (ix2 p q)
      = b (ix1 q) := by
  rw [Cert.LibBroadcastInDim.row_mat_apply, Cert.LibBroadcastInDim.vec_row_apply]

/-- The first columns of an array, entry by entry. -/
theorem colsLo_apply {A B B' : Nat} (X : Cert.Spec.Arr A (B + B')) (p : Fin A) (q : Fin B) :
    Cert.Spec.colsLo (B := B) (B' := B') X (ix2 p q) = X (ix2 p (Fin.castAdd B' q)) := rfl

/-- The last columns of an array, entry by entry. -/
theorem colsHi_apply {A B B' : Nat} (X : Cert.Spec.Arr A (B + B')) (p : Fin A) (q : Fin B') :
    Cert.Spec.colsHi (B := B) (B' := B') X (ix2 p q) = X (ix2 p (Fin.natAdd B q)) := rfl

/-- A row added to every row of an array, entry by entry. -/
theorem biasAdd_apply {A B : Nat} (X : Cert.Spec.Arr A B) (b : Cert.Spec.Arr 1 B) (p : Fin A) (q : Fin B) :
    Cert.Spec.biasAdd X b (ix2 p q) = X (ix2 p q) + b (ix2 (0 : Fin 1) q) := rfl

/-! ## The reference's products are plain products -/

theorem prod1 (x0 : FVec Ideal S100000x128 .f32) (x2 : FVec Ideal S128x128 .f32) :
    Cert.Spec.mm x0 x2 = Cert.ReferenceIdeal.ReadP.val_main_v30 (F := Ideal) x0 x2 := by
  funext i
  obtain ⟨p, q, rfl⟩ : ∃ (p : Fin 100000) (q : Fin 128), i = ix2 p q := ⟨i 0, i 1, eq_ix2 i⟩
  rw [Cert.Spec.mm_apply]
  unfold Cert.ReferenceIdeal.ReadP.val_main_v30
  simp only [Host.dotGeneral]
  exact (Cert.LibPlainDot.dotGeneral_apply _ rfl rfl rfl rfl rfl rfl _ _ x0 x2 p q).symm

/-- Hidden features times one head matrix, as the reference multiplies them. -/
theorem prodHead (h : FVec Ideal S100000x128 .f32) (w : FVec Ideal S128x64 .f32) :
    Cert.Spec.mm h w = Host.dotGeneral (F := Ideal) Cert.ReferenceIdeal.dot_S100000x128_S128x64_S100000x64_1_0_0_1_n_n none h w := by
  funext i
  obtain ⟨p, q, rfl⟩ : ∃ (p : Fin 100000) (q : Fin 64), i = ix2 p q := ⟨i 0, i 1, eq_ix2 i⟩
  rw [Cert.Spec.mm_apply]
  simp only [Host.dotGeneral]
  exact (Cert.LibPlainDot.dotGeneral_apply _ rfl rfl rfl rfl rfl rfl _ _ h w p q).symm

/-! ## Layer one -/

variable (m : (ℓ : Loc nD τ sig) → Buf (Elt Ideal) ℓ) (c : Dev nD)

/-- The first aggregate is the reference's. -/
theorem agg1_ref : agg1 m c = Cert.ReferenceIdeal.ReadP.val_main_v43 (F := Ideal) (a0 m c) (a1 m c) (a2 m c) := by
  show step (Cert.Spec.mm (a0 m c) (a2 m c)) (srcL m c) (dstL m c) (wgt m c) = _
  rw [prod1]
  exact step_ref_v43 (a0 m c) (a1 m c) (a2 m c)

/-- Bias row added and rectified entry by entry is the reference's whole-array bias and rectifier. -/
theorem biasRelu_ref (X : FVec Ideal S100000x128 .f32) (b : FVec Ideal S128 .f32) :
    Cert.Spec.biasRelu X (shapeCast S1x128 b shapeCasts_S128_S1x128)
      = maximumf (addf X (Cert.ReferenceIdeal.ReadP.val_main_v45 (F := Ideal) b)) (Cert.ReferenceIdeal.ReadP.val_main_call1_v0 (F := Ideal)) := by
  funext i
  obtain ⟨p, q, rfl⟩ : ∃ (p : Fin 100000) (q : Fin 128), i = ix2 p q := ⟨i 0, i 1, eq_ix2 i⟩
  show max (X (ix2 p q) + shapeCast S1x128 b shapeCasts_S128_S1x128 (ix2 (0 : Fin 1) q)) 0
    = max (X (ix2 p q) + Cert.ReferenceIdeal.ReadP.val_main_v45 (F := Ideal) b (ix2 p q)) (Cert.ReferenceIdeal.ReadP.val_main_call1_v0 (F := Ideal) (ix2 p q))
  unfold Cert.ReferenceIdeal.ReadP.val_main_v45 Cert.ReferenceIdeal.ReadP.val_main_v44 Cert.ReferenceIdeal.ReadP.val_main_call1_v0 Cert.ReferenceIdeal.ReadP.val_main_call1_cst
  rw [rowCast_apply (n := 128) b shapeCasts_S128_S1x128 q, biasRows_apply (A := 100000) (B := 128) b _ _ p q,
    zeros_apply _ (ix2 p q)]

/-- The hidden features are the reference's. -/
theorem hid_ref : hid m c = Cert.ReferenceIdeal.ReadP.val_main_v47 (F := Ideal) (a0 m c) (a1 m c) (a2 m c) (a3 m c) := by
  show Cert.Spec.biasRelu (agg1 m c) (row1 m c) = _
  rw [agg1_ref]
  exact biasRelu_ref _ _

/-! ## Layer two: the side-by-side weights and biases, column by column -/

theorem wcat_lo (k : Fin 128) (j : Fin 64) : wcat m c (ix2 k (Fin.castAdd 64 j)) = a4 m c (ix2 k j) := by
  refine concatenate_apply_piece (t := S128x128) (1 : Fin 2) _ _ (ix2 k (Fin.castAdd 64 j)) 0 (by show (0 : Nat) < 2; omega) S128x64 (a4 m c) rfl rfl 0 rfl (ix2 k j) ?_ ?_
  · exact fun b hb => match b, hb with
      | ⟨0, _⟩, _ => rfl
      | ⟨1, _⟩, hb => absurd rfl hb
  · show 0 + j.val = j.val
    omega

theorem wcat_hi (k : Fin 128) (j : Fin 64) : wcat m c (ix2 k (Fin.natAdd 64 j)) = a6 m c (ix2 k j) := by
  refine concatenate_apply_piece (t := S128x128) (1 : Fin 2) _ _ (ix2 k (Fin.natAdd 64 j)) 1 (by show (1 : Nat) < 2; omega) S128x64 (a6 m c) rfl rfl 64 rfl (ix2 k j) ?_ ?_
  · exact fun b hb => match b, hb with
      | ⟨0, _⟩, _ => rfl
      | ⟨1, _⟩, hb => absurd rfl hb
  · show 64 + j.val = 64 + j.val
    rfl

theorem bcat_lo (j : Fin 64) : bcat m c (ix1 (Fin.castAdd 64 j)) = a5 m c (ix1 j) := by
  refine concatenate_apply_piece (t := S128) (0 : Fin 1) _ _ (ix1 (Fin.castAdd 64 j)) 0 (by show (0 : Nat) < 2; omega) S64 (a5 m c) rfl rfl 0 rfl (ix1 j) ?_ ?_
  · exact fun b hb => match b, hb with
      | ⟨0, _⟩, hb => absurd rfl hb
  · show 0 + j.val = j.val
    omega

theorem bcat_hi (j : Fin 64) : bcat m c (ix1 (Fin.natAdd 64 j)) = a7 m c (ix1 j) := by
  refine concatenate_apply_piece (t := S128) (0 : Fin 1) _ _ (ix1 (Fin.natAdd 64 j)) 1 (by show (1 : Nat) < 2; omega) S64 (a7 m c) rfl rfl 64 rfl (ix1 j) ?_ ?_
  · exact fun b hb => match b, hb with
      | ⟨0, _⟩, hb => absurd rfl hb
  · show 64 + j.val = 64 + j.val
    rfl

/-- The fused aggregate's first 64 columns: the reference's step over `hidden · W_mu`. -/
theorem agg2_lo : Cert.Spec.colsLo (B := 64) (B' := 64) (agg2 m c)
    = Cert.ReferenceIdeal.ReadP.val_main_v61 (F := Ideal) (a0 m c) (a1 m c) (a2 m c) (a3 m c) (a4 m c) := by
  show Cert.Spec.colsLo (B := 64) (B' := 64) (step (Cert.Spec.mm (hid m c) (wcat m c)) (srcL m c) (dstL m c) (wgt m c)) = _
  unfold step
  refine (Cert.Layer.fused_lo (N := 100000) (M := 1100000) (K := 128) (B := 64) (B' := 64)
    gather_S100000x128_S1100000x1_S1100000x128_1_0_n_n_0_1_1128 rfl rfl rfl rfl rfl
    scatter_S100000x128_S1100000x1_S1100000x128_1_0_0_1 rfl rfl rfl rfl
    Cert.ReferenceIdeal.gather_S100000x64_S1100000x1_S1100000x64_1_0_n_n_0_1_164 rfl rfl rfl rfl rfl
    Cert.ReferenceIdeal.scatter_S100000x64_S1100000x1_S1100000x64_1_0_0_1 rfl rfl rfl rfl
    (hid m c) (wcat m c) (a4 m c) (wcat_lo m c)
    _ (Cert.ReferenceIdeal.ReadP.val_main_v59 (F := Ideal)) (fun u j => ?_)
    _ _
    _ (Cert.ReferenceIdeal.ReadP.val_main_v57 (F := Ideal) (a1 m c)) (fun e j => ?_)
    (by decide)).trans ?_
  · refine (zeros_apply _ _).trans ?_
    unfold Cert.ReferenceIdeal.ReadP.val_main_v59 Cert.ReferenceIdeal.ReadP.val_main_cst_11
    exact (zeros_apply _ _).symm
  · refine (weight_apply (M := 1100000) (C := 128) (wgt m c) _ _ e (Fin.castAdd 64 j)).trans ?_
    unfold Cert.ReferenceIdeal.ReadP.val_main_v57 Cert.ReferenceIdeal.ReadP.val_main_v56
    exact (weight_apply (M := 1100000) (C := 64) (wgt m c) _ _ e j).symm
  · rw [prodHead, hid_ref]
    rfl

/-- The fused aggregate's last 64 columns: the reference's step over `hidden · W_ls`. -/
theorem agg2_hi : Cert.Spec.colsHi (B := 64) (B' := 64) (agg2 m c)
    = Cert.ReferenceIdeal.ReadP.val_main_v78 (F := Ideal) (a0 m c) (a1 m c) (a2 m c) (a3 m c) (a6 m c) := by
  show Cert.Spec.colsHi (B := 64) (B' := 64) (step (Cert.Spec.mm (hid m c) (wcat m c)) (srcL m c) (dstL m c) (wgt m c)) = _
  unfold step
  refine (Cert.Layer.fused_hi (N := 100000) (M := 1100000) (K := 128) (B := 64) (B' := 64)
    gather_S100000x128_S1100000x1_S1100000x128_1_0_n_n_0_1_1128 rfl rfl rfl rfl rfl
    scatter_S100000x128_S1100000x1_S1100000x128_1_0_0_1 rfl rfl rfl rfl
    Cert.ReferenceIdeal.gather_S100000x64_S1100000x1_S1100000x64_1_0_n_n_0_1_164 rfl rfl rfl rfl rfl
    Cert.ReferenceIdeal.scatter_S100000x64_S1100000x1_S1100000x64_1_0_0_1 rfl rfl rfl rfl
    (hid m c) (wcat m c) (a6 m c) (wcat_hi m c)
    _ (Cert.ReferenceIdeal.ReadP.val_main_v76 (F := Ideal)) (fun u j => ?_)
    _ _
    _ (Cert.ReferenceIdeal.ReadP.val_main_v74 (F := Ideal) (a1 m c)) (fun e j => ?_)
    (by decide)).trans ?_
  · refine (zeros_apply _ _).trans ?_
    unfold Cert.ReferenceIdeal.ReadP.val_main_v76 Cert.ReferenceIdeal.ReadP.val_main_cst_14
    exact (zeros_apply _ _).symm
  · refine (weight_apply (M := 1100000) (C := 128) (wgt m c) _ _ e (Fin.natAdd 64 j)).trans ?_
    unfold Cert.ReferenceIdeal.ReadP.val_main_v74 Cert.ReferenceIdeal.ReadP.val_main_v73
    exact (weight_apply (M := 1100000) (C := 64) (wgt m c) _ _ e j).symm
  · rw [prodHead, hid_ref]
    rfl

/-! ## The two results -/

/-- THE FIRST RESULT is the reference's. -/
theorem out_lo : extractStridedSlice S100000x64 ![0, 0] (fused m c) slices_S100000x128_S100000x64_0_0
    = Cert.ReferenceIdeal.ReadP.val_main_v64 (F := Ideal) (a0 m c) (a1 m c) (a2 m c) (a3 m c) (a4 m c) (a5 m c) := by
  funext i
  obtain ⟨u, j, rfl⟩ : ∃ (u : Fin 100000) (j : Fin 64), i = ix2 u j := ⟨i 0, i 1, eq_ix2 i⟩
  rw [extractStridedSlice_apply ![0, 0] (fused m c) slices_S100000x128_S100000x64_0_0 (ix2 u j) (ix2 u (Fin.castAdd 64 j))
    (fun a => by
      match a with
      | ⟨0, _⟩ => show u.val = 0 + u.val; omega
      | ⟨1, _⟩ => show j.val = 0 + j.val; omega)]
  show Cert.Spec.biasAdd (agg2 m c) (row2 m c) (ix2 u (Fin.castAdd 64 j)) = _
  unfold Cert.ReferenceIdeal.ReadP.val_main_v64
  rw [biasAdd_apply, addf_apply, ← agg2_lo m c, colsLo_apply]
  refine congrArg (agg2 m c (ix2 u (Fin.castAdd 64 j)) + ·) ?_
  show shapeCast S1x128 (bcat m c) shapeCasts_S128_S1x128 (ix2 (0 : Fin 1) (Fin.castAdd 64 j)) = _
  refine (rowCast_apply (n := 128) (bcat m c) shapeCasts_S128_S1x128 (Fin.castAdd 64 j)).trans ((bcat_lo m c j).trans ?_)
  unfold Cert.ReferenceIdeal.ReadP.val_main_v63 Cert.ReferenceIdeal.ReadP.val_main_v62
  exact (biasRows_apply (a5 m c) _ _ u j).symm

/-- THE SECOND RESULT is the reference's. -/
theorem out_hi : extractStridedSlice S100000x64 ![0, 64] (fused m c) slices_S100000x128_S100000x64_0_64
    = Cert.ReferenceIdeal.ReadP.val_main_v81 (F := Ideal) (a0 m c) (a1 m c) (a2 m c) (a3 m c) (a6 m c) (a7 m c) := by
  funext i
  obtain ⟨u, j, rfl⟩ : ∃ (u : Fin 100000) (j : Fin 64), i = ix2 u j := ⟨i 0, i 1, eq_ix2 i⟩
  rw [extractStridedSlice_apply ![0, 64] (fused m c) slices_S100000x128_S100000x64_0_64 (ix2 u j) (ix2 u (Fin.natAdd 64 j))
    (fun a => by
      match a with
      | ⟨0, _⟩ => show u.val = 0 + u.val; omega
      | ⟨1, _⟩ => show 64 + j.val = 64 + j.val; rfl)]
  show Cert.Spec.biasAdd (agg2 m c) (row2 m c) (ix2 u (Fin.natAdd 64 j)) = _
  unfold Cert.ReferenceIdeal.ReadP.val_main_v81
  rw [biasAdd_apply, addf_apply, ← agg2_hi m c, colsHi_apply]
  refine congrArg (agg2 m c (ix2 u (Fin.natAdd 64 j)) + ·) ?_
  show shapeCast S1x128 (bcat m c) shapeCasts_S128_S1x128 (ix2 (0 : Fin 1) (Fin.natAdd 64 j)) = _
  refine (rowCast_apply (n := 128) (bcat m c) shapeCasts_S128_S1x128 (Fin.natAdd 64 j)).trans ((bcat_hi m c j).trans ?_)
  unfold Cert.ReferenceIdeal.ReadP.val_main_v80 Cert.ReferenceIdeal.ReadP.val_main_v79
  exact (biasRows_apply (a7 m c) _ _ u j).symm

end Cert.KernelIdeal.Join

end
-- ==== Proof.lean ====
/-
  A two-layer graph convolution with two output heads: the kernel against its reference, over the extended reals.

  Both programs build the same edge lists (the given edges and one self-loop per node), node degrees and symmetric edge
  weights `deg⁻¹ᐟ²[src] · deg⁻¹ᐟ²[dst]`, and run the same message-passing step — gather the transformed rows by source,
  scale by the edge weight, add into the target rows — after each dense transform. They differ in arrangement only.
  The kernel computes `x · W1` and `hidden · [W_mu | W_ls]` in blocks of 5000 rows (operands narrowed to half precision,
  which at the ideal values is the identity) and adds the biases, with the rectifier after the first, in blocks as well;
  the reference does these on whole arrays. And the kernel runs the second layer ONCE on the two heads set side by side
  and cuts the 128 result columns in two, where the reference runs it once per head. Since a product's column and a
  step's column depend on that column alone, the halves are the reference's two results term for term
  (Proof/Join.lean); the frames of the two kernel programs are the generated ones, the reference's frame and value are
  its generated run, and the idealization rewrote nothing, so `preserves` is `True`.
-/
import proofs.«123345_j7421703487979_1_alg».proof.Defs
import proofs.«123345_j7421703487979_1_alg».proof.Proof.Gen.Kernel
import proofs.«123345_j7421703487979_1_alg».proof.Proof.Gen.Kernel.Frame
import proofs.«123345_j7421703487979_1_alg».proof.Proof.Gen.KernelIdeal
import proofs.«123345_j7421703487979_1_alg».proof.Proof.Gen.KernelIdeal.Frame
import proofs.«123345_j7421703487979_1_alg».proof.Proof.Gen.ReferenceIdeal
import proofs.«123345_j7421703487979_1_alg».proof.Proof.Gen.Pre_finite_inputs
import proofs.«123345_j7421703487979_1_alg».proof.Proof.KernelRun
import proofs.«123345_j7421703487979_1_alg».proof.Proof.RefRun
import proofs.«123345_j7421703487979_1_alg».proof.Proof.RefRead
import proofs.«123345_j7421703487979_1_alg».proof.Proof.Join
import Idealize.ShloMosaic.Adequacy
import Idealize.ShloMosaic.Init

noncomputable section

namespace Cert.Proof

open Idealize.ShloMosaic Idealize.SL.Sem
open Cert.KernelIdeal.Trace

/-- The word-level kernel runs, nothing faulting, its arguments unchanged. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference's run with its two results dropped. -/
theorem frame_ri : Cert.frame_ReferenceIdeal := fun m ρ _ =>
  (θ_run Cert.ReferenceIdeal.defs _ _).mono (fun _ h c => (h c).2.2) (Cert.ReferenceIdeal.ValueP.run (F := Ideal) m ρ)

/-- From memories agreeing on the arguments both programs end with the same two arrays: the reference's two heads as
    functions of the kernel's argument arrays. -/
theorem algebraic : Cert.algebraic_KernelIdeal_ReferenceIdeal := by
  intro m ρ m' ρ' _ hagree
  refine ⟨fun c => Cert.ReferenceIdeal.ReadP.val_main_v64 (F := Ideal) (a0 m c) (a1 m c) (a2 m c) (a3 m c) (a4 m c) (a5 m c),
    fun c => Cert.ReferenceIdeal.ReadP.val_main_v81 (F := Ideal) (a0 m c) (a1 m c) (a2 m c) (a3 m c) (a6 m c) (a7 m c), ?_, ?_⟩
  · refine (θ_run Cert.KernelIdeal.defs _ _).mono (fun r h c => ?_) (Cert.KernelIdeal.GenRun.run_results (F := Ideal) m ρ)
    obtain ⟨h64, h65, hargs⟩ := h c
    exact ⟨h64.trans ((K11_v64 m ρ c).trans (Cert.KernelIdeal.Join.out_lo m c)),
      h65.trans ((K11_v65 m ρ c).trans (Cert.KernelIdeal.Join.out_hi m c)), hargs⟩
  · refine (θ_run Cert.ReferenceIdeal.defs _ _).mono (fun r h c => ?_) (Cert.ReferenceIdeal.ValueP.run (F := Ideal) m' ρ')
    obtain ⟨h64, h81, hargs⟩ := h c
    obtain ⟨e0, e1, e2, e3, e4, e5, e6, e7⟩ := hagree c
    refine ⟨h64.trans ?_, h81.trans ?_, hargs⟩
    · rw [Cert.ReferenceIdeal.ReadP.val_main_v64_eq, e0, e1, e2, e3, e4, e5]
    · rw [Cert.ReferenceIdeal.ReadP.val_main_v81_eq, e0, e1, e2, e3, e6, e7]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
